-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S9216x512 : Shape := ⟨2, ![9216, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S9216x512 : S_.BroadcastsInDim S9216x512 (![] : Fin 0 → Fin S9216x512.rank)
  reducesTo_S9216x512_S_d0_1 : S9216x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S9216x512 1) : IVec S_ 1 :=
  let main_c_5 : IVec S_ 1 := constantI S_ 1 1#1
  let main_v17 : IVec S_ 1 := (fun x v => Host.reduce IntOp.andi x v reducesTo_S9216x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8192x512 .f32) (main_arg1 : FVec F S8192x8192 .f32) (main_arg2 : FVec F S8192x512 .f32) (main_arg3 : FVec F S9216x512 .f32) (main_arg4 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S9216x512 .f32 := Host.absf main_arg3
  let main_cst_4 : FVec F S_ .f32 := constant S_ .f32 0x7F800000#32
  let main_v15 : FVec F S9216x512 .f32 := broadcastInDim S9216x512 ![] bcast_S_S9216x512 main_cst_4
  let main_v16 : IVec S9216x512 1 := cmpf .olt main_v14 main_v15
  fn_part1 (F := F) main_arg4 main_v13 main_v16
-- ==== Kernel.lean ====
abbrev S8192x512 : Shape := ⟨2, ![8192, 512]⟩
abbrev S8192x8192 : Shape := ⟨2, ![8192, 8192]⟩
abbrev S9216x512 : Shape := ⟨2, ![9216, 512]⟩
abbrev S512 : Shape := ⟨1, ![512]⟩
abbrev S512x512 : Shape := ⟨2, ![512, 512]⟩
abbrev S1024x512 : Shape := ⟨2, ![1024, 512]⟩
abbrev S1x512 : Shape := ⟨2, ![1, 512]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x512, .f32⟩
  | .hbm, ⟨3, _⟩ => ⟨S9216x512, .f32⟩
  | .hbm, ⟨4, _⟩ => ⟨S512, .f32⟩
  | .hbm, ⟨5, _⟩ => ⟨S512x512, .f32⟩
  | .hbm, ⟨6, _⟩ => ⟨S8192x512, .f32⟩
  | .hbm, ⟨7, _⟩ => ⟨S512x512, .f32⟩
  | .hbm, ⟨8, _⟩ => ⟨S8192x512, .bf16⟩
  | .hbm, ⟨9, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | .local _ .vmem, ⟨9, _⟩ => ⟨S8192x512, .bf16⟩
  | .local _ .vmem, ⟨10, _⟩ => ⟨S1024x512, .f32⟩
  | .local _ .vmem, ⟨11, _⟩ => ⟨S1024x512, .f32⟩
  | .local _ .vmem, ⟨12, _⟩ => ⟨S512x512, .f32⟩
  | .local _ .vmem, ⟨13, _⟩ => ⟨S512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S9216x512_S512x512_0_0 : S9216x512.Slices ![0, 0] S512x512
  slices_S9216x512_S8192x512_512_0 : S9216x512.Slices ![512, 0] S8192x512
  slices_S9216x512_S512x512_8704_0 : S9216x512.Slices ![8704, 0] S512x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S8192x512.size a
  hwx1_5 : ∀ i : grid1.Coords, EltTy.bits .f32 = 32 ∨ (Rect.block (s := S8192x512) S1024x512.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S9216x512 : Shape := ⟨2, ![9216, 512]⟩
abbrev S512 : Shape := ⟨1, ![512]⟩
abbrev S8192x9216 : Shape := ⟨2, ![8192, 9216]⟩
abbrev S1x512 : Shape := ⟨2, ![1, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x512, .f32⟩
  | .hbm, ⟨3, _⟩ => ⟨S9216x512, .f32⟩
  | .hbm, ⟨4, _⟩ => ⟨S512, .f32⟩
  | .hbm, ⟨5, _⟩ => ⟨S8192x512, .f32⟩
  | .hbm, ⟨6, _⟩ => ⟨S8192x9216, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  concatenates_S8192x512_S8192x8192_S8192x512_S8192x9216_d1 : Shape.Concatenates [S8192x512, S8192x8192, S8192x512] S8192x9216 1
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x8192_S8192x512_S8192x512_1_0_0_1_n_n_wf : DotDims.WF S8192x8192 S8192x512 S8192x512 [1] [0] [0] [1] [] []
  dot_S8192x9216_S9216x512_S8192x512_1_0_0_1_n_n_wf : DotDims.WF S8192x9216 S9216x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x9216_S9216x512_S8192x512_1_0_0_1_n_n : DotDims S8192x9216 S9216x512 S8192x512 where
  lhsContracting := [1]
  rhsContracting := [0]
  lhsNonContracting := [0]
  rhsNonContracting := [1]
  lhsBatch := []
  rhsBatch := []
  wf := dot_S8192x9216_S9216x512_S8192x512_1_0_0_1_n_n_wf

class Facts : Prop extends Facts₀ where

variable [Facts]
-- ==== Proof.K.R0.lean ====
/-
  The first kernel region: C = input · W1 + W2, one row tile of 1024 rows per grid point.
  At a point the body reads its three input blocks whole, multiplies the first two on the matrix unit into a
  zero accumulator, adds the third, and stores the sum over the whole output block; it keeps nothing between
  points. So after the body at point t the output's staging buffer holds one pure function of the three input
  blocks at t, whatever the buffer held before, and each input's buffer still holds its block.
-/
import proofs.«106925_j33655363732151_1_alg».proof.Proof.Gen.Kernel.Launch
import proofs.«106925_j33655363732151_1_alg».proof.Proof.Gen.Kernel.Skeleton
import proofs.«106925_j33655363732151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or
    not: the row-tile windows are fetched at every point, the weight window once, and its index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×512 block and the whole 512×512 block, as the body's rectangles. -/
abbrev rT : Rect S1024x512 := Rect.unit (s := S1024x512) ![0, 0] S1024x512.size inb_S1024x512_S1024x512_0_0
abbrev rW : Rect S512x512 := Rect.unit (s := S512x512) ![0, 0] S512x512.size inb_S512x512_S512x512_0_0

/-- What the body leaves in the output's staging buffer: its one store, over the whole block, of the product
    plus the third block. -/
def out0_3 (x0 : Vec F S1024x512 .f32) (x1 : Vec F S512x512 .f32) (x2 : Vec F S1024x512 .f32) : Vec F S1024x512 .bf16 :=
  View.canon [⟨rT, k0_pay1 (View.ld x0 rT) (View.ld x1 rW) (View.ld x2 rT)⟩]

/-- The one store covers the buffer. -/
theorem cover0_3 (p0 : Vec F S1024x512 .bf16) (y : S1024x512.Idx) :
    ∃ pc ∈ ([⟨rT, p0⟩] : List (View.Piece (Elt F) S1024x512 .bf16)), y ∈ pc.1.set :=
  View.cover_of_tiled [⟨rT, p0⟩] S1024x512.size (by rfl) y

set_option maxHeartbeats 1000000 in
/-- The body on whole staging memrefs: the inputs stay as they were, the output ends at `out0_3` of them. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1024x512 .f32) (harg3 : arg3.IsWhole) (arg4 : Memref sig .tc .vmem S1024x512 .bf16) (harg4 : arg4.IsWhole)
    (x0 : Vec F S1024x512 .f32) (x1 : Vec F S512x512 .f32) (x2 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__kernel_a i arg1 harg1 arg2 harg2 arg3 harg3 arg4 harg4) K := by
  simp only [cc0__kernel_a_eq_skeleton]; unfold cc0__kernel_a_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body each input's buffer
    at its block and the output's at `out0_3` of the three blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1Runs.lean ====
/-
  The second kernel region: out = adj · C + x · W3 + bias, on a grid of 8 row tiles by 16 column tiles of adj.
  At a point (m, k) the body works on a scratch accumulator it keeps across the sixteen points of a row tile:
  at k = 0 it resets the accumulator to x-block · W3 + bias; at every k it adds adj-block · (rows 512k .. 512k+511 of C);
  at k = 15 it copies the accumulator into the output block. So the body has three control cases — the first column
  tile, a middle one, the last — and this module runs the body once in each, on whole staging memrefs: the inputs
  keep their contents, the output is left untouched except in the last case, and what the stores leave in the
  accumulator (and, in the last case, in the output block) is recorded as the list of stored pieces.
-/
import proofs.«106925_j33655363732151_1_alg».proof.Proof.Gen.Kernel.Launch
import proofs.«106925_j33655363732151_1_alg».proof.Proof.Gen.Kernel.Skeleton
import proofs.«106925_j33655363732151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not: where a
    point does not fetch a window its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the grid -/

/-- "This is the first column tile" (k = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last column tile" (k = 15). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, away from the last column tile, and live there. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S1024x512 .f32 := (Memref.whole cc1_stg5_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S1024x512 .f32 := Memref.whole cc1_scratch0
abbrev VS1 : View sig .tc .vmem S1024x512 .f32 := scM1.view

/-- The core's other scoped buffers that this region does not stage (the first region's staging buffers), each
    whole at some contents. -/
def restR (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant, with the accumulator split out as a memref owned at some contents. -/
theorem PhiA1_split (c : Dev nD) :
    (Pipeline.ΦA spec1 c : sProp 𝕄) ⊢ iprop(restR (F := F) c ∗ (∃ d, owns (c : Thread nD τ) scM1 fullShare d) ∗ (∃ r, prngReg c r)) := by
  unfold Pipeline.ΦA restR; rw [scopedRest1_eq]; simp only [scM1, owns_whole]
  iintro ⟨⟨A1, A2, A3, A4, A5, A6, A7, HS⟩, Hg⟩
  isplitl [A1 A2 A3 A4 A5 A6 A7]
  · isplitl [A1]; · iexact A1
    isplitl [A2]; · iexact A2
    isplitl [A3]; · iexact A3
    isplitl [A4]; · iexact A4
    isplitl [A5]; · iexact A5
    isplitl [A6]; · iexact A6
    iexact A7
  isplitl [HS]; · iexact HS
  iexact Hg
theorem PhiA1_join (c : Dev nD) :
    iprop(restR (F := F) c ∗ (∃ d, owns (c : Thread nD τ) scM1 fullShare d) ∗ (∃ r, prngReg c r)) ⊢ (Pipeline.ΦA spec1 c : sProp 𝕄) := by
  unfold Pipeline.ΦA restR; rw [scopedRest1_eq]; simp only [scM1, owns_whole]
  iintro ⟨⟨A1, A2, A3, A4, A5, A6, A7⟩, HS, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-! ## The body, case by case -/

set_option maxHeartbeats 1000000 in
/-- FIRST column tile (k = 0, not the last): the accumulator may hold anything; it is reset and one tile is added;
    the output block is handed back untouched. The stored pieces of the accumulator are what the run finds. -/
noncomputable def kernelRun1_A (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : cond1_0 i) (hc1 : ¬cond1_1 i) (x0 : Vec F S1024x512 .f32) (x1 : Vec F S8192x512 .bf16) (x2 : Vec F S1024x512 .f32) (x3 : Vec F S512x512 .f32) (x4 : Vec F S512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b i arg2 harg2 arg3 harg3 arg4 harg4 arg5 harg5 arg6 harg6 arg7 harg7 arg8 harg8) K } := by
  refine ⟨[], ?_, fun xi5 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- A MIDDLE column tile (0 < k < 15): the accumulator holds what the point before left (xs0); one tile is added;
    the output block is handed back untouched. -/
noncomputable def kernelRun1_B (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : ¬cond1_1 i) (x0 : Vec F S1024x512 .f32) (x1 : Vec F S8192x512 .bf16) (x2 : Vec F S1024x512 .f32) (x3 : Vec F S512x512 .f32) (x4 : Vec F S512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b i arg2 harg2 arg3 harg3 arg4 harg4 arg5 harg5 arg6 harg6 arg7 harg7 arg8 harg8) K } := by
  refine ⟨[], ?_, fun xi5 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The LAST column tile (k = 15): the accumulator holds what the point before left; the last tile is added and the
    accumulator is copied over the whole output block, whatever that held. -/
noncomputable def kernelRun1_C (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b i arg2 harg2 arg3 harg3 arg4 harg4 arg5 harg5 arg6 harg6 arg7 harg7 arg8 harg8) K } := by
  refine ⟨?_, ?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Frm

end
-- ==== Proof.K.R1.lean ====
/-
  The second kernel region, point by point. What the accumulator holds after point n is defined by recursion on n:
  at the first column tile of a row tile it is what the reset-and-add case leaves, from the point's input blocks
  alone; at any other point it is what the add case leaves over what the point before left. The region's invariant
  carries the accumulator at exactly these contents from one point to the next (before the first point it may hold
  anything, and after the last its contents are forgotten again). The output block is written only at the last
  column tile of a row tile, with the accumulator's contents there, and that is also the only point that writes
  it back; elsewhere its staging buffer is handed back as found.
-/
import proofs.«106925_j33655363732151_1_alg».proof.Proof.K.R1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its stored pieces -/

/-- First column tile: the accumulator's pieces cover it, -/
theorem scover1_A (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : cond1_0 i) (hc1 : ¬cond1_1 i) (x0 : Vec F S1024x512 .f32) (x1 : Vec F S8192x512 .bf16) (x2 : Vec F S1024x512 .f32) (x3 : Vec F S512x512 .f32) (x4 : Vec F S512 .f32) (y : S1024x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x512.size (by sl_kernel_rfl) y
/-- and this is what they leave in it. -/
def sout1_A (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : cond1_0 i) (hc1 : ¬cond1_1 i) (x0 : Vec F S1024x512 .f32) (x1 : Vec F S8192x512 .bf16) (x2 : Vec F S1024x512 .f32) (x3 : Vec F S512x512 .f32) (x4 : Vec F S512 .f32) : Vec F S1024x512 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

/-- A middle column tile, over what the point before left (xs0). -/
theorem scover1_B (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : ¬cond1_1 i) (x0 : Vec F S1024x512 .f32) (x1 : Vec F S8192x512 .bf16) (x2 : Vec F S1024x512 .f32) (x3 : Vec F S512x512 .f32) (x4 : Vec F S512 .f32) (xs0 : Vec F S1024x512 .f32) (y : S1024x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x512.size (by sl_kernel_rfl) y
def sout1_B (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : ¬cond1_1 i) (x0 : Vec F S1024x512 .f32) (x1 : Vec F S8192x512 .bf16) (x2 : Vec F S1024x512 .f32) (x3 : Vec F S512x512 .f32) (x4 : Vec F S512 .f32) (xs0 : Vec F S1024x512 .f32) : Vec F S1024x512 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs0).2.1)

/-- The last column tile: the accumulator's pieces and the output block's pieces each cover their buffer. -/
theorem scover1_C (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x512.size (by sl_kernel_rfl) y
def sout1_C (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) : Vec F S1024x512 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs0).2.1)
theorem cover1_C_5 (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x512.size (by sl_kernel_rfl) y
def out1_C_5 (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) : Vec F S1024x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-! ## The accumulator after each point -/

/-- What the accumulator holds after the body at position n. -/
def scAt (c : Dev nD) : (n : ℕ) → n < cfg1.N → Vec F S1024x512 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 16 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 16 = 15 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (scAt c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (scAt c n (Nat.lt_of_succ_lt hn))

theorem scAt_A (c : Dev nD) (t : Fin cfg1.N) (h0 : t.val % 16 = 0) (h1 : ¬t.val % 16 = 15) :
    scAt V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

theorem scAt_B (c : Dev nD) (t : Fin cfg1.N) (h0 : ¬t.val % 16 = 0) (h1 : ¬t.val % 16 = 15) :
    scAt V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t)
      (scAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt_C (c : Dev nD) (t : Fin cfg1.N) (h0 : ¬t.val % 16 = 0) (h1 : t.val % 16 = 15) :
    scAt V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t)
      (scAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at a last column tile (elsewhere nothing
    consults it: the window is idle there and not written back). -/
def outAt5 (c : Dev nD) (t : Fin cfg1.N) : Vec F S1024x512 .f32 :=
  if h1 : t.val % 16 = 15 then
    out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => (fun h => by (try dsimp only at h); omega) ((hcond1_0 t).mp h)) ((hcond1_1 t).mpr h1) (iblk1 V c 0 t) (iblk1 V c 1 t) (iblk1 V c 2 t) (iblk1 V c 3 t) (iblk1 V c 4 t)
      (scAt V c (t.val - 1) (Nat.lt_of_le_of_lt (Nat.sub_le _ _) t.isLt))
  else VO1_5.read (Elt F) VO1_5.junk

theorem outAt5_C (c : Dev nD) (t : Fin cfg1.N) (h0 : ¬t.val % 16 = 0) (h1 : t.val % 16 = 15) :
    outAt5 V c t = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t)
      (scAt V c (t.val - 1) (Nat.lt_of_le_of_lt (Nat.sub_le _ _) t.isLt)) := by
  unfold outAt5; exact (dif_pos h1).trans rfl

/-! ## The invariant -/

/-- Before position n: before the first point the class invariant (the accumulator at anything); afterwards the
    other scoped buffers at anything, the accumulator at what the point before left, the generator register at
    some state. -/
def PhiS1 (c : Dev nD) : (n : ℕ) → n ≤ cfg1.N → sProp 𝕄
  | 0, _ => Pipeline.ΦA spec1 c
  | n + 1, hn => iprop(restR (F := F) c ∗ owns (c : Thread nD τ) scM1 fullShare (scAt V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restR (F := F) c ∗ owns (c : Thread nD τ) scM1 fullShare (scAt V c n hn) ∗ (∃ r, prngReg c r)) := rfl
theorem PhiS1_pos (c : Dev nD) (n : ℕ) (h : n ≤ cfg1.N) (hz : n ≠ 0) :
    PhiS1 V c n h = iprop(restR (F := F) c ∗ owns (c : Thread nD τ) scM1 fullShare (scAt V c (n - 1) (by omega)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt5 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt5 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the closed forms say which case the point is in; the invariant hands the body the
    accumulator at what the point before left (at anything before the first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h1 : t.val % 16 = 15
  · have h0 : ¬t.val % 16 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    rw [outAt5_C V c t h0 h1, scAt_C V c t h0 h1]
    unfold out1_C_5 sout1_C; (try dsimp only)
    rw [PhiS1_castSucc V c t, PhiS1_pos V c _ _ hz]
    iintro ⟨⟨HR, HS0, Hg⟩, Ho, ⟨%d0, H0⟩, ⟨%d1, H1⟩, ⟨%d2, H2⟩, ⟨%d3, H3⟩, ⟨%d4, H4⟩, ⟨%d5, H5⟩⟩
    iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover1_C c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_C_5 c _ _ _ _ _ _ _ _ _ _ _ _ _ _ _ _ _ _ _ _ _ _ _)
  · rw [Dat.leavesExact_idle (dat1 V c) 5 t (idleAt1_5 t (fun h => h1 ((hcond1_1 t).mp h))) (noFlush1_5 t (fun h => h1 ((hcond1_1 t).mp h)))]
    by_cases h0 : t.val % 16 = 0
    · rw [scAt_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiA1_split (F := F) c) $$ HΦ
        icases HΦ' with ⟨HR, HS0, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := fun hz => h0 (by rw [hz])
      rw [scAt_B V c t h0 h1]
      unfold sout1_B; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Whatever the accumulator holds, the invariant after a point yields the class invariant: the contents are forgotten. -/
theorem PhiS1_forget (c : Dev nD) (x : Vec F S1024x512 .f32) :
    (iprop(restR (F := F) c ∗ owns (c : Thread nD τ) scM1 fullShare x ∗ (∃ r, prngReg c r)) : sProp 𝕄) ⊢ Pipeline.ΦA spec1 c :=
  (show (iprop(restR (F := F) c ∗ owns (c : Thread nD τ) scM1 fullShare x ∗ (∃ r, prngReg c r)) : sProp 𝕄)
      ⊢ iprop(restR (F := F) c ∗ (∃ d, owns (c : Thread nD τ) scM1 fullShare d) ∗ (∃ r, prngReg c r)) from by
    iintro ⟨HR, HS0, Hg⟩
    isplitl [HR]; · iexact HR
    isplitl [HS0]; · iexists _; iexact HS0
    iexact Hg).trans (PhiA1_join (F := F) c)

/-- and after the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ ht]
  exact PhiS1_forget c _

end Cert.Kernel.Frm

end
-- ==== Proof.K.Run.lean ====
/-
  The whole program as a sequence of segments: three host slices of the stacked weight, then the first kernel
  region, then the second. Between two segments the core holds every unscoped buffer at known contents: the launch
  memory; then the three slices written; then the first region's output array at what its write-backs leave (every
  other buffer as before); then the second region's output array likewise. Each region takes its arrays out of that
  state, runs its pipeline over them, and puts them back at their final contents; the first region's invariant is the
  class's own, the second's carries the accumulator from point to point and forgets it at the end. The run ends with
  every unscoped buffer at the last boundary's contents, from which both the result and the unchanged arguments are read.
-/
import proofs.«106925_j33655363732151_1_alg».proof.Proof.K.R0
import proofs.«106925_j33655363732151_1_alg».proof.Proof.K.R1
import proofs.«106925_j33655363732151_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the three slices (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The slices write only their own three result buffers. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 4).trans (((dat1 (V2 m ρ) c).arrAt_in 4 rfl _).trans (A_eq1 (V2 m ρ) c 4))
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
/-- The result array ends at what the second region's write-backs leave. -/
theorem W3_main_v4 (c : Dev nD) : W3 m ρ c (Proc.devRef .tc main_v4) = (dat1 (V2 m ρ) c).arrAt 5 cfg1.N := W3_arr m ρ c 5

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3; its invariant starts as the class's
    and ends giving the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m ρ) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run, read at the result and at the five arguments. -/
theorem run_res : θ_run defs (onTc (τ := τ) (main (F := F))) ⟨m, fun _ => 0, ρ⟩ (fun r => ∀ c : Dev nD,
      r.2.mem ((c.tc : Thread nD τ).loc main_v4) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_res m ρ)

end Cert.Kernel.Frm

end
-- ==== Proof.KI.R0.lean ====
/-
  The first kernel region: C = input · W1 + W2, one row tile of 1024 rows per grid point.
  At a point the body reads its three input blocks whole, multiplies the first two on the matrix unit into a
  zero accumulator, adds the third, and stores the sum over the whole output block; it keeps nothing between
  points. So after the body at point t the output's staging buffer holds one pure function of the three input
  blocks at t, whatever the buffer held before, and each input's buffer still holds its block.
-/
import proofs.«106925_j33655363732151_1_alg».proof.Proof.Gen.KernelIdeal.Launch
import proofs.«106925_j33655363732151_1_alg».proof.Proof.Gen.KernelIdeal.Skeleton
import proofs.«106925_j33655363732151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or
    not: the row-tile windows are fetched at every point, the weight window once, and its index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×512 block and the whole 512×512 block, as the body's rectangles. -/
abbrev rT : Rect S1024x512 := Rect.unit (s := S1024x512) ![0, 0] S1024x512.size inb_S1024x512_S1024x512_0_0
abbrev rW : Rect S512x512 := Rect.unit (s := S512x512) ![0, 0] S512x512.size inb_S512x512_S512x512_0_0

/-- What the body leaves in the output's staging buffer: its one store, over the whole block, of the product
    plus the third block. -/
def out0_3 (x0 : Vec F S1024x512 .f32) (x1 : Vec F S512x512 .f32) (x2 : Vec F S1024x512 .f32) : Vec F S1024x512 .bf16 :=
  View.canon [⟨rT, k0_pay1 (View.ld x0 rT) (View.ld x1 rW) (View.ld x2 rT)⟩]

/-- The one store covers the buffer. -/
theorem cover0_3 (p0 : Vec F S1024x512 .bf16) (y : S1024x512.Idx) :
    ∃ pc ∈ ([⟨rT, p0⟩] : List (View.Piece (Elt F) S1024x512 .bf16)), y ∈ pc.1.set :=
  View.cover_of_tiled [⟨rT, p0⟩] S1024x512.size (by rfl) y

set_option maxHeartbeats 1000000 in
/-- The body on whole staging memrefs: the inputs stay as they were, the output ends at `out0_3` of them. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1024x512 .f32) (harg3 : arg3.IsWhole) (arg4 : Memref sig .tc .vmem S1024x512 .bf16) (harg4 : arg4.IsWhole)
    (x0 : Vec F S1024x512 .f32) (x1 : Vec F S512x512 .f32) (x2 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__kernel_a i arg1 harg1 arg2 harg2 arg3 harg3 arg4 harg4) K := by
  simp only [cc0__kernel_a_eq_skeleton]; unfold cc0__kernel_a_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body each input's buffer
    at its block and the output's at `out0_3` of the three blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1Runs.lean ====
/-
  The second kernel region: out = adj · C + x · W3 + bias, on a grid of 8 row tiles by 16 column tiles of adj.
  At a point (m, k) the body works on a scratch accumulator it keeps across the sixteen points of a row tile:
  at k = 0 it resets the accumulator to x-block · W3 + bias; at every k it adds adj-block · (rows 512k .. 512k+511 of C);
  at k = 15 it copies the accumulator into the output block. So the body has three control cases — the first column
  tile, a middle one, the last — and this module runs the body once in each, on whole staging memrefs: the inputs
  keep their contents, the output is left untouched except in the last case, and what the stores leave in the
  accumulator (and, in the last case, in the output block) is recorded as the list of stored pieces.
-/
import proofs.«106925_j33655363732151_1_alg».proof.Proof.Gen.KernelIdeal.Launch
import proofs.«106925_j33655363732151_1_alg».proof.Proof.Gen.KernelIdeal.Skeleton
import proofs.«106925_j33655363732151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not: where a
    point does not fetch a window its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the grid -/

/-- "This is the first column tile" (k = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last column tile" (k = 15). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, away from the last column tile, and live there. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S1024x512 .f32 := (Memref.whole cc1_stg5_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S1024x512 .f32 := Memref.whole cc1_scratch0
abbrev VS1 : View sig .tc .vmem S1024x512 .f32 := scM1.view

/-- The core's other scoped buffers that this region does not stage (the first region's staging buffers), each
    whole at some contents. -/
def restR (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant, with the accumulator split out as a memref owned at some contents. -/
theorem PhiA1_split (c : Dev nD) :
    (Pipeline.ΦA spec1 c : sProp 𝕄) ⊢ iprop(restR (F := F) c ∗ (∃ d, owns (c : Thread nD τ) scM1 fullShare d) ∗ (∃ r, prngReg c r)) := by
  unfold Pipeline.ΦA restR; rw [scopedRest1_eq]; simp only [scM1, owns_whole]
  iintro ⟨⟨A1, A2, A3, A4, A5, A6, A7, HS⟩, Hg⟩
  isplitl [A1 A2 A3 A4 A5 A6 A7]
  · isplitl [A1]; · iexact A1
    isplitl [A2]; · iexact A2
    isplitl [A3]; · iexact A3
    isplitl [A4]; · iexact A4
    isplitl [A5]; · iexact A5
    isplitl [A6]; · iexact A6
    iexact A7
  isplitl [HS]; · iexact HS
  iexact Hg
theorem PhiA1_join (c : Dev nD) :
    iprop(restR (F := F) c ∗ (∃ d, owns (c : Thread nD τ) scM1 fullShare d) ∗ (∃ r, prngReg c r)) ⊢ (Pipeline.ΦA spec1 c : sProp 𝕄) := by
  unfold Pipeline.ΦA restR; rw [scopedRest1_eq]; simp only [scM1, owns_whole]
  iintro ⟨⟨A1, A2, A3, A4, A5, A6, A7⟩, HS, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-! ## The body, case by case -/

set_option maxHeartbeats 1000000 in
/-- FIRST column tile (k = 0, not the last): the accumulator may hold anything; it is reset and one tile is added;
    the output block is handed back untouched. The stored pieces of the accumulator are what the run finds. -/
noncomputable def kernelRun1_A (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : cond1_0 i) (hc1 : ¬cond1_1 i) (x0 : Vec F S1024x512 .f32) (x1 : Vec F S8192x512 .bf16) (x2 : Vec F S1024x512 .f32) (x3 : Vec F S512x512 .f32) (x4 : Vec F S512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b i arg2 harg2 arg3 harg3 arg4 harg4 arg5 harg5 arg6 harg6 arg7 harg7 arg8 harg8) K } := by
  refine ⟨[], ?_, fun xi5 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- A MIDDLE column tile (0 < k < 15): the accumulator holds what the point before left (xs0); one tile is added;
    the output block is handed back untouched. -/
noncomputable def kernelRun1_B (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : ¬cond1_1 i) (x0 : Vec F S1024x512 .f32) (x1 : Vec F S8192x512 .bf16) (x2 : Vec F S1024x512 .f32) (x3 : Vec F S512x512 .f32) (x4 : Vec F S512 .f32) (xs0 : Vec F S1024x512 .f32) :
    Σ' (L5 : List (View.Piece (Elt F) S1024x512 .f32)), { LS0 : List (View.Piece (Elt F) S1024x512 .f32) //
      ∀ (xi5 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b i arg2 harg2 arg3 harg3 arg4 harg4 arg5 harg5 arg6 harg6 arg7 harg7 arg8 harg8) K } := by
  refine ⟨[], ?_, fun xi5 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The LAST column tile (k = 15): the accumulator holds what the point before left; the last tile is added and the
    accumulator is copied over the whole output block, whatever that held. -/
noncomputable def kernelRun1_C (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__kernel_b i arg2 harg2 arg3 harg3 arg4 harg4 arg5 harg5 arg6 harg6 arg7 harg7 arg8 harg8) K } := by
  refine ⟨?_, ?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Frm

end
-- ==== Proof.KI.R1.lean ====
/-
  The second kernel region, point by point. What the accumulator holds after point n is defined by recursion on n:
  at the first column tile of a row tile it is what the reset-and-add case leaves, from the point's input blocks
  alone; at any other point it is what the add case leaves over what the point before left. The region's invariant
  carries the accumulator at exactly these contents from one point to the next (before the first point it may hold
  anything, and after the last its contents are forgotten again). The output block is written only at the last
  column tile of a row tile, with the accumulator's contents there, and that is also the only point that writes
  it back; elsewhere its staging buffer is handed back as found.
-/
import proofs.«106925_j33655363732151_1_alg».proof.Proof.KI.R1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its stored pieces -/

/-- First column tile: the accumulator's pieces cover it, -/
theorem scover1_A (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : cond1_0 i) (hc1 : ¬cond1_1 i) (x0 : Vec F S1024x512 .f32) (x1 : Vec F S8192x512 .bf16) (x2 : Vec F S1024x512 .f32) (x3 : Vec F S512x512 .f32) (x4 : Vec F S512 .f32) (y : S1024x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x512.size (by sl_kernel_rfl) y
/-- and this is what they leave in it. -/
def sout1_A (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : cond1_0 i) (hc1 : ¬cond1_1 i) (x0 : Vec F S1024x512 .f32) (x1 : Vec F S8192x512 .bf16) (x2 : Vec F S1024x512 .f32) (x3 : Vec F S512x512 .f32) (x4 : Vec F S512 .f32) : Vec F S1024x512 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

/-- A middle column tile, over what the point before left (xs0). -/
theorem scover1_B (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : ¬cond1_1 i) (x0 : Vec F S1024x512 .f32) (x1 : Vec F S8192x512 .bf16) (x2 : Vec F S1024x512 .f32) (x3 : Vec F S512x512 .f32) (x4 : Vec F S512 .f32) (xs0 : Vec F S1024x512 .f32) (y : S1024x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x512.size (by sl_kernel_rfl) y
def sout1_B (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : ¬cond1_1 i) (x0 : Vec F S1024x512 .f32) (x1 : Vec F S8192x512 .bf16) (x2 : Vec F S1024x512 .f32) (x3 : Vec F S512x512 .f32) (x4 : Vec F S512 .f32) (xs0 : Vec F S1024x512 .f32) : Vec F S1024x512 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs0).2.1)

/-- The last column tile: the accumulator's pieces and the output block's pieces each cover their buffer. -/
theorem scover1_C (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x512.size (by sl_kernel_rfl) y
def sout1_C (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) : Vec F S1024x512 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs0).2.1)
theorem cover1_C_5 (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x512.size (by sl_kernel_rfl) y
def out1_C_5 (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) : Vec F S1024x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-! ## The accumulator after each point -/

/-- What the accumulator holds after the body at position n. -/
def scAt (c : Dev nD) : (n : ℕ) → n < cfg1.N → Vec F S1024x512 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 16 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 16 = 15 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (scAt c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (scAt c n (Nat.lt_of_succ_lt hn))

theorem scAt_A (c : Dev nD) (t : Fin cfg1.N) (h0 : t.val % 16 = 0) (h1 : ¬t.val % 16 = 15) :
    scAt V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

theorem scAt_B (c : Dev nD) (t : Fin cfg1.N) (h0 : ¬t.val % 16 = 0) (h1 : ¬t.val % 16 = 15) :
    scAt V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t)
      (scAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt_C (c : Dev nD) (t : Fin cfg1.N) (h0 : ¬t.val % 16 = 0) (h1 : t.val % 16 = 15) :
    scAt V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t)
      (scAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at a last column tile (elsewhere nothing
    consults it: the window is idle there and not written back). -/
def outAt5 (c : Dev nD) (t : Fin cfg1.N) : Vec F S1024x512 .f32 :=
  if h1 : t.val % 16 = 15 then
    out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => (fun h => by (try dsimp only at h); omega) ((hcond1_0 t).mp h)) ((hcond1_1 t).mpr h1) (iblk1 V c 0 t) (iblk1 V c 1 t) (iblk1 V c 2 t) (iblk1 V c 3 t) (iblk1 V c 4 t)
      (scAt V c (t.val - 1) (Nat.lt_of_le_of_lt (Nat.sub_le _ _) t.isLt))
  else VO1_5.read (Elt F) VO1_5.junk

theorem outAt5_C (c : Dev nD) (t : Fin cfg1.N) (h0 : ¬t.val % 16 = 0) (h1 : t.val % 16 = 15) :
    outAt5 V c t = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t)
      (scAt V c (t.val - 1) (Nat.lt_of_le_of_lt (Nat.sub_le _ _) t.isLt)) := by
  unfold outAt5; exact (dif_pos h1).trans rfl

/-! ## The invariant -/

/-- Before position n: before the first point the class invariant (the accumulator at anything); afterwards the
    other scoped buffers at anything, the accumulator at what the point before left, the generator register at
    some state. -/
def PhiS1 (c : Dev nD) : (n : ℕ) → n ≤ cfg1.N → sProp 𝕄
  | 0, _ => Pipeline.ΦA spec1 c
  | n + 1, hn => iprop(restR (F := F) c ∗ owns (c : Thread nD τ) scM1 fullShare (scAt V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restR (F := F) c ∗ owns (c : Thread nD τ) scM1 fullShare (scAt V c n hn) ∗ (∃ r, prngReg c r)) := rfl
theorem PhiS1_pos (c : Dev nD) (n : ℕ) (h : n ≤ cfg1.N) (hz : n ≠ 0) :
    PhiS1 V c n h = iprop(restR (F := F) c ∗ owns (c : Thread nD τ) scM1 fullShare (scAt V c (n - 1) (by omega)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt5 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt5 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the closed forms say which case the point is in; the invariant hands the body the
    accumulator at what the point before left (at anything before the first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h1 : t.val % 16 = 15
  · have h0 : ¬t.val % 16 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    rw [outAt5_C V c t h0 h1, scAt_C V c t h0 h1]
    unfold out1_C_5 sout1_C; (try dsimp only)
    rw [PhiS1_castSucc V c t, PhiS1_pos V c _ _ hz]
    iintro ⟨⟨HR, HS0, Hg⟩, Ho, ⟨%d0, H0⟩, ⟨%d1, H1⟩, ⟨%d2, H2⟩, ⟨%d3, H3⟩, ⟨%d4, H4⟩, ⟨%d5, H5⟩⟩
    iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover1_C c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_C_5 c _ _ _ _ _ _ _ _ _ _ _ _ _ _ _ _ _ _ _ _ _ _ _)
  · rw [Dat.leavesExact_idle (dat1 V c) 5 t (idleAt1_5 t (fun h => h1 ((hcond1_1 t).mp h))) (noFlush1_5 t (fun h => h1 ((hcond1_1 t).mp h)))]
    by_cases h0 : t.val % 16 = 0
    · rw [scAt_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiA1_split (F := F) c) $$ HΦ
        icases HΦ' with ⟨HR, HS0, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := fun hz => h0 (by rw [hz])
      rw [scAt_B V c t h0 h1]
      unfold sout1_B; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Whatever the accumulator holds, the invariant after a point yields the class invariant: the contents are forgotten. -/
theorem PhiS1_forget (c : Dev nD) (x : Vec F S1024x512 .f32) :
    (iprop(restR (F := F) c ∗ owns (c : Thread nD τ) scM1 fullShare x ∗ (∃ r, prngReg c r)) : sProp 𝕄) ⊢ Pipeline.ΦA spec1 c :=
  (show (iprop(restR (F := F) c ∗ owns (c : Thread nD τ) scM1 fullShare x ∗ (∃ r, prngReg c r)) : sProp 𝕄)
      ⊢ iprop(restR (F := F) c ∗ (∃ d, owns (c : Thread nD τ) scM1 fullShare d) ∗ (∃ r, prngReg c r)) from by
    iintro ⟨HR, HS0, Hg⟩
    isplitl [HR]; · iexact HR
    isplitl [HS0]; · iexists _; iexact HS0
    iexact Hg).trans (PhiA1_join (F := F) c)

/-- and after the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ ht]
  exact PhiS1_forget c _

end Cert.KernelIdeal.Frm

end
-- ==== Proof.KI.Run.lean ====
/-
  The whole program as a sequence of segments: three host slices of the stacked weight, then the first kernel
  region, then the second. Between two segments the core holds every unscoped buffer at known contents: the launch
  memory; then the three slices written; then the first region's output array at what its write-backs leave (every
  other buffer as before); then the second region's output array likewise. Each region takes its arrays out of that
  state, runs its pipeline over them, and puts them back at their final contents; the first region's invariant is the
  class's own, the second's carries the accumulator from point to point and forgets it at the end. The run ends with
  every unscoped buffer at the last boundary's contents, from which both the result and the unchanged arguments are read.
-/
import proofs.«106925_j33655363732151_1_alg».proof.Proof.KI.R0
import proofs.«106925_j33655363732151_1_alg».proof.Proof.KI.R1
import proofs.«106925_j33655363732151_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the three slices (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The slices write only their own three result buffers. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 4).trans (((dat1 (V2 m ρ) c).arrAt_in 4 rfl _).trans (A_eq1 (V2 m ρ) c 4))
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
/-- The result array ends at what the second region's write-backs leave. -/
theorem W3_main_v4 (c : Dev nD) : W3 m ρ c (Proc.devRef .tc main_v4) = (dat1 (V2 m ρ) c).arrAt 5 cfg1.N := W3_arr m ρ c 5

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3; its invariant starts as the class's
    and ends giving the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m ρ) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run, read at the result and at the five arguments. -/
theorem run_res : θ_run defs (onTc (τ := τ) (main (F := F))) ⟨m, fun _ => 0, ρ⟩ (fun r => ∀ c : Dev nD,
      r.2.mem ((c.tc : Thread nD τ).loc main_v4) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_res m ρ)

end Cert.KernelIdeal.Frm

end
-- ==== Proof.Spec.lean ====
/-
  The mathematics of the two programs, over the extended reals, as plain functions of a row and a column.

  The stacked weight has 9216 rows: rows 0..511 are W1, rows 512..8703 are W2, rows 8704..9215 are W3.
  Kernel side: C = input · W1 + W2 (8192 × 512); the result starts at x · W3 + bias and then takes, tile by tile
  of 512 columns of adj (sixteen tiles, in order), the product of that tile of adj with the matching 512 rows of C.
  Reference side: [adj · input | adj | x] (8192 × 9216) times the stacked weight, plus bias.
  For real entries the two agree: the matrix product is associative and distributes over the sum.
-/
import Idealize.ShloMosaic.PureOps.Ideal
import Idealize.ShloMosaic.Lib.ValueIdx

noncomputable section

namespace Cert.Spec

open Idealize.ShloMosaic Idealize.ShloMosaic.ValueIdx

/-- A matrix and a vector of extended reals over literal extents. -/
abbrev Mat (a b : Nat) : Type := (⟨2, ![a, b]⟩ : Shape).Idx → EReal
abbrev Vc (a : Nat) : Type := (⟨1, ![a]⟩ : Shape).Idx → EReal

/-- Every entry is a real number. -/
def IsReal {α : Type} (f : α → EReal) : Prop := ∀ i, ∃ y : ℝ, f i = (y : EReal)

/-- The rows of the stacked weight that hold W1, W2 and W3. -/
def rowW1 (k : Fin 512) : Fin 9216 := ⟨k.val, by omega⟩
def rowW2 (l : Fin 8192) : Fin 9216 := ⟨512 + l.val, by omega⟩
def rowW3 (k : Fin 512) : Fin 9216 := ⟨8704 + k.val, by omega⟩

/-- The three row slices of the stacked weight. -/
def sl1 (wt : Mat 9216 512) : Mat 512 512 := fun i => wt (ix2 (rowW1 (i 0)) (i 1))
def sl2 (wt : Mat 9216 512) : Mat 8192 512 := fun i => wt (ix2 (rowW2 (i 0)) (i 1))
def sl3 (wt : Mat 9216 512) : Mat 512 512 := fun i => wt (ix2 (rowW3 (i 0)) (i 1))

/-- C = input · W1 + W2 at row l, column j. -/
def Cof (inp : Mat 8192 512) (w1 : Mat 512 512) (w2 : Mat 8192 512) (l : Fin 8192) (j : Fin 512) : EReal :=
  (∑ k : Fin 512, inp (ix2 l k) * w1 (ix2 k j)) + w2 (ix2 l j)

/-- Column k of tile s of adj (equally: row k of tile s of C); s < 16 in every use, the remainder only makes the
    function total. -/
def tcol (s : ℕ) (k : Fin 512) : Fin 8192 := ⟨(512 * s + k.val) % 8192, Nat.mod_lt _ (by decide)⟩

/-- Tile s of adj times the matching rows of C, at row r, column j. -/
def tileTerm (adj : Mat 8192 8192) (C : Fin 8192 → Fin 512 → EReal) (s : ℕ) (r : Fin 8192) (j : Fin 512) : EReal :=
  ∑ k : Fin 512, adj (ix2 r (tcol s k)) * C (tcol s k) j

/-- What the accumulator is reset to: x · W3 + bias. -/
def acc0 (x : Mat 8192 512) (w3 : Mat 512 512) (bias : Vc 512) (r : Fin 8192) (j : Fin 512) : EReal :=
  (∑ k : Fin 512, x (ix2 r k) * w3 (ix2 k j)) + bias (ix1 j)

/-- The accumulator after the first n tiles have been added, in order. -/
def accAfter (adj : Mat 8192 8192) (C : Fin 8192 → Fin 512 → EReal) (x : Mat 8192 512) (w3 : Mat 512 512) (bias : Vc 512) :
    ℕ → Fin 8192 → Fin 512 → EReal
  | 0 => acc0 x w3 bias
  | n + 1 => fun r j => accAfter adj C x w3 bias n r j + tileTerm adj C n r j

/-- The kernel's result: all sixteen tiles added. -/
def Gker (adj : Mat 8192 8192) (inp : Mat 8192 512) (x : Mat 8192 512) (w1 : Mat 512 512) (w2 : Mat 8192 512) (w3 : Mat 512 512)
    (bias : Vc 512) (r : Fin 8192) (j : Fin 512) : EReal :=
  accAfter adj (Cof inp w1 w2) x w3 bias 16 r j

/-- Row r of [adj · input | adj | x] at column k of the joined axis. -/
def support (adj : Mat 8192 8192) (inp : Mat 8192 512) (x : Mat 8192 512) (r : Fin 8192) (k : Fin 9216) : EReal :=
  if h : k.val < 512 then ∑ l : Fin 8192, adj (ix2 r l) * inp (ix2 l ⟨k.val, h⟩)
  else if h2 : k.val < 8704 then adj (ix2 r ⟨k.val - 512, by omega⟩)
  else x (ix2 r ⟨k.val - 8704, by omega⟩)

/-- The reference's result. -/
def Gref (adj : Mat 8192 8192) (inp : Mat 8192 512) (x : Mat 8192 512) (wt : Mat 9216 512) (bias : Vc 512)
    (r : Fin 8192) (j : Fin 512) : EReal :=
  (∑ k : Fin 9216, support adj inp x r k * wt (ix2 k j)) + bias (ix1 j)

end Cert.Spec

end
-- ==== Proof.KI.Val0.lean ====
/-
  The value of the first kernel region over the extended reals. At grid point t the body multiplies rows
  1024 t … 1024 t + 1023 of the input by the whole first weight on the matrix unit, into a zero accumulator, adds
  the same rows of the second weight, and stores the sum over the whole output block; the narrowings to the short
  format and the casts to the same shape are the identity here. Every point writes its block back, block t of the
  output is rows 1024 t … 1024 t + 1023, and the eight blocks fill the 8192 rows. So after the region the output
  array holds C = input · W1 + W2 of the three arrays as the region found them, index by index.
-/
import proofs.«106925_j33655363732151_1_alg».proof.Proof.KI.R0
import proofs.«106925_j33655363732151_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm.Val0

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product's operand indices -/

theorem lhs_k0_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_k0_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_k0_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_k0_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero accumulator, at row p and column q: the sum over the shared axis. -/
theorem matmul_zero_at (a : FVec Ideal S1024x512 .bf16) (b : FVec Ideal S512x512 .bf16) (p : Fin 1024) (q : Fin 512) :
    matmul dot_S1024x512_S512x512_S1024x512_1_0_0_1_n_n none a b (constant (F := Ideal) S1024x512 .f32 0x00000000#32) (ix2 p q)
      = ∑ k : Fin 512, a (ix2 p k) * b (ix2 k q) := by
  refine (Ideal.matmul_constant_zero_apply dot_S1024x512_S512x512_S1024x512_1_0_0_1_n_n none a b (ix2 p q)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_k0_0 _ _
    | ⟨1, _⟩ => exact (lhs_k0_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_k0_0 _ _).trans hk
    | ⟨1, _⟩ => exact rhs_k0_1 _ _)
  rw [el, er]

/-- The body's stored value at row p and column q of the block: the first block's row p times the second
    block's column q, plus the third block's entry. The narrowings and the casts to the same shape change nothing
    over the extended reals. -/
theorem pay_at (x0 : Vec Ideal S1024x512 .f32) (x1 : Vec Ideal S512x512 .f32) (x2 : Vec Ideal S1024x512 .f32)
    (p : Fin 1024) (q : Fin 512) :
    k0_pay1 (F := Ideal) x0 x1 x2 (ix2 p q) = (∑ k : Fin 512, x0 (ix2 p k) * x1 (ix2 k q)) + x2 (ix2 p q) := by
  unfold k0_pay1
  show matmul dot_S1024x512_S512x512_S1024x512_1_0_0_1_n_n none (truncf .bf16 x0 bitsLt_bf16_f32)
        (truncf .bf16 (shapeCast S512x512 x1 shapeCasts_S512x512_S512x512) bitsLt_bf16_f32)
        (constant (F := Ideal) S1024x512 .f32 0x00000000#32) (ix2 p q)
      + shapeCast S1024x512 x2 shapeCasts_S1024x512_S1024x512 (ix2 p q) = _
  refine congrArg₂ (· + ·) ((matmul_zero_at _ _ p q).trans ?_) (congrFun (shapeCast_self x2 _) (ix2 p q))
  refine Finset.sum_congr rfl fun k _ => ?_
  exact congrArg (x0 (ix2 p k) * ·) (congrFun (shapeCast_self x1 _) (ix2 k q))

/-! ## The body's result is its stored value -/

variable {F : FTy → Type} [FloatOps F]

theorem zero_offsets : (![0, 0] : Fin 2 → Nat) = fun _ => 0 := funext fun a => by fin_cases a <;> rfl

/-- The one store covers the block from the origin and the three loads read whole blocks, so what the body leaves
    is its stored value of the three blocks. -/
theorem out0_3_eq (x0 : Vec F S1024x512 .f32) (x1 : Vec F S512x512 .f32) (x2 : Vec F S1024x512 .f32) :
    out0_3 x0 x1 x2 = k0_pay1 x0 x1 x2 := by
  unfold out0_3
  rw [View.canon_unit_zero zero_offsets]
  simp only [View.ld_unit_zero (S := S1024x512) zero_offsets, View.ld_unit_zero (S := S512x512) zero_offsets]

/-! ## The blocks as parts of their arrays -/

/-- The block index of each window at grid point t: the three row-tiled windows sit at block row t, the weight
    window never moves. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of the first window's block at point t is row 1024 t + p of the input array. -/
theorem blk0_at (c : Dev nD) (t : Fin cfg0.N) (p : Fin 1024) (k : Fin 512) (l : Fin 8192) (hl : l.val = t.val * 1024 + p.val) :
    (iblk0 V c 0 t : Vec Ideal S1024x512 .f32) (ix2 p k) = (V c main_arg0 : S8192x512.Idx → EReal) (ix2 l k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * p.val = l.val; rw [e0, hl]; omega
  | ⟨1, _⟩ => show win0_0.index t (1 : Fin 2) * 512 + 1 * k.val = k.val; rw [e1]; omega

/-- The second window's block is the whole first weight, at every point. -/
theorem blk1_at (c : Dev nD) (t : Fin cfg0.N) (k : Fin 512) (q : Fin 512) :
    (iblk0 V c 1 t : Vec Ideal S512x512 .f32) (ix2 k q) = (V c main_v0 : S512x512.Idx → EReal) (ix2 k q) := by
  obtain ⟨-, -, e2, e3, -⟩ := idx_facts0 t
  unfold iblk0
  rw [View.read_apply]
  show V c main_v0 _ = V c main_v0 _
  refine congrArg (V c main_v0) (funext fun a => Fin.ext ?_)
  match a with
  | ⟨0, _⟩ => show win0_1.index t (0 : Fin 2) * 512 + 1 * k.val = k.val; rw [e2]; omega
  | ⟨1, _⟩ => show win0_1.index t (1 : Fin 2) * 512 + 1 * q.val = q.val; rw [e3]; omega

/-- Row p of the third window's block at point t is row 1024 t + p of the second weight. -/
theorem blk2_at (c : Dev nD) (t : Fin cfg0.N) (p : Fin 1024) (q : Fin 512) (l : Fin 8192) (hl : l.val = t.val * 1024 + p.val) :
    (iblk0 V c 2 t : Vec Ideal S1024x512 .f32) (ix2 p q) = (V c main_v1 : S8192x512.Idx → EReal) (ix2 l q) := by
  obtain ⟨-, -, -, -, e4, e5, -⟩ := idx_facts0 t
  unfold iblk0
  rw [View.read_apply]
  show V c main_v1 _ = V c main_v1 _
  refine congrArg (V c main_v1) (funext fun a => Fin.ext ?_)
  match a with
  | ⟨0, _⟩ => show win0_2.index t (0 : Fin 2) * 1024 + 1 * p.val = l.val; rw [e4, hl]; omega
  | ⟨1, _⟩ => show win0_2.index t (1 : Fin 2) * 512 + 1 * q.val = q.val; rw [e5]; omega

/-! ## What each point writes back, and the array after the region -/

/-- The body's stored value at row p, column q of the block at point t is C at row 1024 t + p, column q of the
    three arrays. -/
theorem pay_blocks_at (c : Dev nD) (t : Fin cfg0.N) (p : Fin 1024) (q : Fin 512) (l : Fin 8192) (hl : l.val = t.val * 1024 + p.val) :
    k0_pay1 (F := Ideal) (iblk0 V c 0 t) (iblk0 V c 1 t) (iblk0 V c 2 t) (ix2 p q)
      = Cert.Spec.Cof (V c main_arg0) (V c main_v0) (V c main_v1) l q := by
  refine (pay_at (iblk0 V c 0 t) (iblk0 V c 1 t) (iblk0 V c 2 t) p q).trans ?_
  unfold Cert.Spec.Cof
  refine congrArg₂ (· + ·) (Finset.sum_congr rfl fun k _ => ?_) (blk2_at V c t p q l hl)
  exact congrArg₂ (· * ·) (blk0_at V c t p k l hl) (blk1_at V c t k q)

/-- C of the three arrays as the region finds them, as one array. -/
abbrev Carr (c : Dev nD) : S8192x512.Idx → EReal :=
  fun i => Cert.Spec.Cof (V c main_arg0) (V c main_v0) (V c main_v1) (i 0) (i 1)

/-- What point t writes back is block t of C. -/
theorem flushed0_3_eq (c : Dev nD) (t : Fin cfg0.N) :
    (dat0 (F := Ideal) V c).flushed 3 t = ((cfg0.win 3).blk t).view.read (Elt Ideal) (Carr V c) := by
  show (cfg0.win 3).cut (grid0.coords t) ((dat0 V c).after 3 t) = _
  rw [after0_3, out0_3_eq]
  funext y
  have hy0 : (y 0).val < 1024 := (y 0).isLt
  have hy1 : (y 1).val < 512 := (y 1).isLt
  obtain ⟨-, -, -, -, -, -, e6, e7⟩ := idx_facts0 t
  have hN : cfg0.N = 8 := N_0
  have ht : t.val < cfg0.N := t.isLt
  have hx : (cfg0.win 3).xinj (grid0.coords t) y = ix2 (⟨(y 0).val, hy0⟩ : Fin 1024) (⟨(y 1).val, hy1⟩ : Fin 512) :=
    funext fun a => by match a with | ⟨0, _⟩ => rfl | ⟨1, _⟩ => rfl
  refine (congrArg (k0_pay1 (F := Ideal) (iblk0 V c 0 t) (iblk0 V c 1 t) (iblk0 V c 2 t)) hx).trans ?_
  refine (pay_blocks_at V c t ⟨(y 0).val, hy0⟩ ⟨(y 1).val, hy1⟩ ⟨t.val * 1024 + (y 0).val, by omega⟩ rfl).trans ?_
  rw [View.read_apply]
  show _ = Cert.Spec.Cof (V c main_arg0) (V c main_v0) (V c main_v1) ((((cfg0.win 3).blk t).view.emb y) 0) ((((cfg0.win 3).blk t).view.emb y) 1)
  refine congrArg₂ (Cert.Spec.Cof (V c main_arg0) (V c main_v0) (V c main_v1)) (Fin.ext ?_) (Fin.ext ?_)
  · show t.val * 1024 + (y 0).val = win0_3.index t (0 : Fin 2) * 1024 + 1 * (y 0).val
    rw [e6]; omega
  · show (y 1).val = win0_3.index t (1 : Fin 2) * 512 + 1 * (y 1).val
    rw [e7]; omega

/-- An index of the output array is in point t's block iff each coordinate is in the block's range on its axis. -/
theorem mem_blk0_3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v3).slice (win0_3.rect t)).set ↔ _
  rw [View.set_slice_whole, Rect.mem_set_unit]
  exact Iff.rfl

/-- Row r of the output array lies in the block of point r / 1024, and every point writes its block back: the
    eight blocks fill the array. -/
theorem blocks_fill0_3 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e6, e7⟩ := idx_facts0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 512 ≤ (i 1).val ∧ (i 1).val < win0_3.index t (1 : Fin 2) * 512 + 512
    rw [e7]; omega

end Cert.KernelIdeal.Frm.Val0

namespace Cert.KernelIdeal.Frm

open Cert.KernelIdeal Cert.KernelIdeal.Gen Idealize.ShloMosaic Idealize.ShloMosaic.TcCoe Idealize.SL.Sem

/-- After the region the output array holds C = input · W1 + W2 of the three arrays as the region found them,
    index by index: every point writes back block t of C, and the blocks fill the array. -/
theorem arrAt0_3 (V : (c : Dev nD) → (b : Ref sig .tc) → Buf (Elt Ideal) ((c : Thread nD τ).loc b)) (c : Dev nD) :
    (dat0 (F := Ideal) V c).arrAt 3 cfg0.N
      = fun i => Cert.Spec.Cof (V c main_arg0) (V c main_v0) (V c main_v1) (i 0) (i 1) :=
  (dat0 (F := Ideal) V c).arrAt_eq_of_cover 3 (Val0.Carr V c) (fun t _ => Val0.flushed0_3_eq V c t) Val0.blocks_fill0_3

end Cert.KernelIdeal.Frm

end
-- ==== Proof.KI.Val1Pay.lean ====
/-
  The second kernel's two stored values, read at a row and a column of the block, over the extended reals.
  The reset value is the row of the block times the column of the third weight, on the matrix unit into a zero
  accumulator, plus the bias entry of that column: the bias vector is viewed as one row and that row is repeated
  down the block. One accumulation step is the accumulator's entry plus the row of the first operand times the
  column of the second, again into a zero accumulator. The narrowings to the short format and the casts to the same
  shape are the identity here.
-/
import proofs.«106925_j33655363732151_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm.Val1

open Cert.KernelIdeal Cert.KernelIdeal.Gen Idealize.ShloMosaic Idealize.ShloMosaic.ValueIdx

/-! ## The matrix product's operand indices -/

theorem lhs_k1_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_k1_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_k1_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_k1_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero accumulator, at row p and column q: the sum over the shared axis. -/
theorem matmul_zero_at (a : FVec Ideal S1024x512 .bf16) (b : FVec Ideal S512x512 .bf16) (p : Fin 1024) (q : Fin 512) :
    matmul dot_S1024x512_S512x512_S1024x512_1_0_0_1_n_n none a b (constant (F := Ideal) S1024x512 .f32 0x00000000#32) (ix2 p q)
      = ∑ k : Fin 512, a (ix2 p k) * b (ix2 k q) := by
  refine (Ideal.matmul_constant_zero_apply dot_S1024x512_S512x512_S1024x512_1_0_0_1_n_n none a b (ix2 p q)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_k1_0 _ _
    | ⟨1, _⟩ => exact (lhs_k1_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_k1_0 _ _).trans hk
    | ⟨1, _⟩ => exact rhs_k1_1 _ _)
  rw [el, er]

/-! ## The two stored values -/

/-- The reset value: block · W3 + bias row. -/
theorem pay1_at (x2 : Vec Ideal S1024x512 .f32) (x3 : Vec Ideal S512x512 .f32) (x4 : Vec Ideal S512 .f32) (p : Fin 1024) (q : Fin 512) :
    k1_pay1 x2 x3 x4 (ix2 p q) = (∑ k : Fin 512, x2 (ix2 p k) * x3 (ix2 k q)) + x4 (ix1 q) := by
  unfold k1_pay1
  show shapeCast S1024x512
      (addf (F := Ideal)
        (matmul dot_S1024x512_S512x512_S1024x512_1_0_0_1_n_n none (truncf .bf16 x2 bitsLt_bf16_f32)
          (truncf .bf16 (shapeCast S512x512 x3 shapeCasts_S512x512_S512x512) bitsLt_bf16_f32)
          (constant (F := Ideal) S1024x512 .f32 0x00000000#32))
        (broadcastTo S1024x512 (shapeCast S1x512 x4 shapeCasts_S512_S1x512) broadcasts_S1x512_S1024x512))
      shapeCasts_S1024x512_S1024x512 (ix2 p q) = _
  refine (congrFun (shapeCast_self _ shapeCasts_S1024x512_S1024x512) (ix2 p q)).trans ?_
  show matmul dot_S1024x512_S512x512_S1024x512_1_0_0_1_n_n none (truncf .bf16 x2 bitsLt_bf16_f32)
        (truncf .bf16 (shapeCast S512x512 x3 shapeCasts_S512x512_S512x512) bitsLt_bf16_f32)
        (constant (F := Ideal) S1024x512 .f32 0x00000000#32) (ix2 p q)
      + broadcastTo S1024x512 (shapeCast S1x512 x4 shapeCasts_S512_S1x512) broadcasts_S1x512_S1024x512 (ix2 p q) = _
  refine congrArg₂ (· + ·) ((matmul_zero_at _ _ p q).trans ?_)
    ((broadcastTo_1b_ab_apply _ broadcasts_S1x512_S1024x512 p q).trans (shapeCast_a_1a_apply x4 shapeCasts_S512_S1x512 0 q))
  refine Finset.sum_congr rfl fun k _ => ?_
  exact congrArg (x2 (ix2 p k) * ·) (congrFun (shapeCast_self x3 _) (ix2 k q))

/-- One accumulation step: the accumulator plus adj-block · C-tile. -/
theorem pay2_at (v6 : Vec Ideal S512x512 .bf16) (v8 : Vec Ideal S1024x512 .f32) (v10 : Vec Ideal S1024x512 .f32) (p : Fin 1024) (q : Fin 512) :
    k1_pay2 v6 v8 v10 (ix2 p q) = v10 (ix2 p q) + ∑ k : Fin 512, v8 (ix2 p k) * v6 (ix2 k q) := by
  unfold k1_pay2
  show shapeCast S1024x512
      (addf (F := Ideal) v10
        (matmul dot_S1024x512_S512x512_S1024x512_1_0_0_1_n_n none (truncf .bf16 v8 bitsLt_bf16_f32)
          (shapeCast S512x512 v6 shapeCasts_S512x512_S512x512)
          (constant (F := Ideal) S1024x512 .f32 0x00000000#32)))
      shapeCasts_S1024x512_S1024x512 (ix2 p q) = _
  refine (congrFun (shapeCast_self _ shapeCasts_S1024x512_S1024x512) (ix2 p q)).trans ?_
  show v10 (ix2 p q)
      + matmul dot_S1024x512_S512x512_S1024x512_1_0_0_1_n_n none (truncf .bf16 v8 bitsLt_bf16_f32)
          (shapeCast S512x512 v6 shapeCasts_S512x512_S512x512)
          (constant (F := Ideal) S1024x512 .f32 0x00000000#32) (ix2 p q) = _
  refine congrArg (v10 (ix2 p q) + ·) ((matmul_zero_at _ _ p q).trans ?_)
  refine Finset.sum_congr rfl fun k _ => ?_
  exact congrArg (v8 (ix2 p k) * ·) (congrFun (shapeCast_self v6 _) (ix2 k q))

end Cert.KernelIdeal.Frm.Val1

end
-- ==== Proof.KI.Val1.lean ====
/-
  The value of the second kernel region over the extended reals. The grid has 128 points t = 16 m + k: m is one of
  eight row tiles of 1024 rows, k one of sixteen column tiles of 512 columns of the adjacency. At a point the body
  sees the adjacency block (rows 1024 m …, columns 512 k …), the whole C array, rows 1024 m … of x, the whole third
  weight and the whole bias. At k = 0 it resets its accumulator to x-block · W3 + bias; at every k it adds the
  adjacency block times rows 512 k … 512 k + 511 of C; at k = 15 it copies the accumulator over the output block,
  and only those points write the block back. So, by induction on the point, after point 16 m + k the accumulator
  holds at row p the specification's accumulator after tiles 0 … k at row 1024 m + p; the eight blocks written back
  are rows 1024 m … 1024 m + 1023 of the accumulator after all sixteen tiles, and they fill the 8192 rows.
-/
import proofs.«106925_j33655363732151_1_alg».proof.Proof.KI.R1
import proofs.«106925_j33655363732151_1_alg».proof.Proof.KI.Val1Pay
import proofs.«106925_j33655363732151_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm.Val1

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

/-! ## What each control case leaves, as a stored value of the blocks -/

variable {F : FTy → Type} [FloatOps F]

theorem zero_offsets : (![0, 0] : Fin 2 → Nat) = fun _ => 0 := funext fun a => by fin_cases a <;> rfl

theorem zero_offsets1 : (![0] : Fin 1 → Nat) = fun _ => 0 := funext fun a => by fin_cases a; rfl

/-- The 512 rows of the whole C array that the body loads at a grid point. -/
abbrev ctile (i : grid1.Coords) (x1 : Vec F S8192x512 .bf16) : Vec F S512x512 .bf16 :=
  View.ld x1 (Rect.unit (s := S8192x512) (k1_off1 i) S512x512.size (k1_off1_inb i))

/-- A middle column tile: the one store covers the accumulator, and its loads read whole buffers except the rows of C. -/
theorem sout1_B_eq (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : ¬cond1_1 i) (x0 : Vec F S1024x512 .f32) (x1 : Vec F S8192x512 .bf16) (x2 : Vec F S1024x512 .f32) (x3 : Vec F S512x512 .f32) (x4 : Vec F S512 .f32) (xs0 : Vec F S1024x512 .f32) :
    sout1_B c i arg2 harg2 arg3 harg3 arg4 harg4 arg5 harg5 arg6 harg6 arg7 harg7 arg8 harg8 hc0 hc1 x0 x1 x2 x3 x4 xs0 = k1_pay2 (ctile i x1) x0 xs0 := by
  unfold sout1_B
  rw [View.read_writes_eq_canon _ _ _ (scover1_B c i arg2 harg2 arg3 harg3 arg4 harg4 arg5 harg5 arg6 harg6 arg7 harg7 arg8 harg8 hc0 hc1 x0 x1 x2 x3 x4 xs0)]
  unfold kernelRun1_B
  dsimp only
  rw [View.canon_unit_zero zero_offsets]
  simp only [View.readAt_eq_ld, harg2.read_unread, harg3.read_unread, harg8.read_unread, View.ld_unit_zero (S := S1024x512) zero_offsets]

/-- The first column tile: the reset value is stored, read back, and one tile is added to it. -/
theorem sout1_A_eq (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : cond1_0 i) (hc1 : ¬cond1_1 i) (x0 : Vec F S1024x512 .f32) (x1 : Vec F S8192x512 .bf16) (x2 : Vec F S1024x512 .f32) (x3 : Vec F S512x512 .f32) (x4 : Vec F S512 .f32) :
    sout1_A c i arg2 harg2 arg3 harg3 arg4 harg4 arg5 harg5 arg6 harg6 arg7 harg7 arg8 harg8 hc0 hc1 x0 x1 x2 x3 x4 = k1_pay2 (ctile i x1) x0 (k1_pay1 x2 x3 x4) := by
  unfold sout1_A
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_run_names
  rw [View.canon_cons_unit_zero (S := S1024x512) zero_offsets, View.readCov_unit_zero (S := S1024x512) _ zero_offsets]
  simp only [View.readAt_eq_ld, harg2.read_unread, harg3.read_unread, harg4.read_unread, harg5.read_unread, harg6.read_unread,
    View.ld_unit_zero (S := S1024x512) zero_offsets, View.ld_unit_zero (S := S512x512) zero_offsets, View.ld_unit_zero (S := S512) zero_offsets1]

/-- The last column tile leaves in the accumulator what a middle one does, -/
theorem sout1_C_eq (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) :
    sout1_C c i arg2 harg2 arg3 harg3 arg4 harg4 arg5 harg5 arg6 harg6 arg7 harg7 arg8 harg8 hc0 hc1 x0 x1 x2 x3 x4 xs0 = k1_pay2 (ctile i x1) x0 xs0 := by
  unfold sout1_C
  rw [View.read_writes_eq_canon _ _ _ (scover1_C c i arg2 harg2 arg3 harg3 arg4 harg4 arg5 harg5 arg6 harg6 arg7 harg7 arg8 harg8 hc0 hc1 x0 x1 x2 x3 x4 xs0)]
  unfold kernelRun1_C
  dsimp only
  sl_unfold_run_names
  rw [View.canon_unit_zero zero_offsets]
  simp only [View.readAt_eq_ld, harg2.read_unread, harg3.read_unread, harg8.read_unread, View.ld_unit_zero (S := S1024x512) zero_offsets]

/-- and copies the same value over the output block. -/
theorem out1_C_5_eq (c : Dev nD) (i : grid1.Coords) (arg2 : Memref sig .tc .vmem S1024x512 .f32) (harg2 : arg2.IsWhole) (arg3 : Memref sig .tc .vmem S8192x512 .bf16) (harg3 : arg3.IsWhole)
    (arg4 : Memref sig .tc .vmem S1024x512 .f32) (harg4 : arg4.IsWhole) (arg5 : Memref sig .tc .vmem S512x512 .f32) (harg5 : arg5.IsWhole)
    (arg6 : Memref sig .tc .vmem S512 .f32) (harg6 : arg6.IsWhole) (arg7 : Memref sig .tc .vmem S1024x512 .f32) (harg7 : arg7.IsWhole)
    (arg8 : Memref sig .tc .vmem S1024x512 .f32) (harg8 : arg8.IsWhole)
    (hc0 : ¬cond1_0 i) (hc1 : cond1_1 i) (x0 : Vec F S1024x512 .f32) (x1 : Vec F S8192x512 .bf16) (x2 : Vec F S1024x512 .f32) (x3 : Vec F S512x512 .f32) (x4 : Vec F S512 .f32) (xs0 : Vec F S1024x512 .f32) :
    out1_C_5 c i arg2 harg2 arg3 harg3 arg4 harg4 arg5 harg5 arg6 harg6 arg7 harg7 arg8 harg8 hc0 hc1 x0 x1 x2 x3 x4 xs0 = k1_pay2 (ctile i x1) x0 xs0 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_run_names
  rw [View.canon_unit_zero zero_offsets]
  simp only [View.readCov_unit_zero (S := S1024x512) _ zero_offsets, View.readAt_eq_ld, harg2.read_unread, harg3.read_unread, harg8.read_unread, View.ld_unit_zero (S := S1024x512) zero_offsets]

/-! ## The blocks as parts of their arrays -/

/-- The block index of each window at grid point t = 16 m + k: the adjacency window sits at block (m, k), the x and
    output windows at block row m, the whole-array windows never move; and the rows of C the body loads start at 512 k. -/
theorem idx_facts1 : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val / 16 ∧ win1_5.index t (1 : Fin 2) = 0
    ∧ k1_off1 (grid1.coords t) (0 : Fin 2) = 512 * (t.val % 16) ∧ k1_off1 (grid1.coords t) (1 : Fin 2) = 0 :=
  (by decide +kernel : ∀ t : Fin grid1.N, _)

/-- Row k of the loaded rows of C at point t is row 512 (t mod 16) + k of the whole array. -/
theorem ctile_at (t : Fin cfg1.N) (x1 : Vec Ideal S8192x512 .bf16) (k : Fin 512) (q : Fin 512) (m : Fin 8192)
    (hm : m.val = 512 * (t.val % 16) + k.val) :
    ctile (F := Ideal) (grid1.coords t) x1 (ix2 k q) = x1 (ix2 m q) := by
  obtain ⟨-, -, -, -, -, -, -, -, -, -, -, e0, e1⟩ := idx_facts1 t
  show x1 _ = x1 _
  refine congrArg x1 (funext fun a => Fin.ext ?_)
  match a with
  | ⟨0, _⟩ => show k1_off1 (grid1.coords t) (0 : Fin 2) + 1 * k.val = m.val; rw [e0, hm]; omega
  | ⟨1, _⟩ => show k1_off1 (grid1.coords t) (1 : Fin 2) + 1 * q.val = q.val; rw [e1]; omega

variable (V : (c : Dev nD) → (b : Ref sig .tc) → Buf (Elt Ideal) ((c : Thread nD τ).loc b))

/-- The five arrays as the region finds them, over their literal index types. -/
abbrev adjA (c : Dev nD) : S8192x8192.Idx → EReal := V c main_arg1
abbrev cA (c : Dev nD) : S8192x512.Idx → EReal := V c main_v3
abbrev xA (c : Dev nD) : S8192x512.Idx → EReal := V c main_arg2
abbrev wA (c : Dev nD) : S512x512.Idx → EReal := V c main_v2
abbrev bA (c : Dev nD) : S512.Idx → EReal := V c main_arg4

/-- The five input blocks at a point, over their literal vector types. -/
abbrev blkAdj (c : Dev nD) (t : Fin cfg1.N) : Vec Ideal S1024x512 .f32 := iblk1 V c 0 t
abbrev blkC (c : Dev nD) (t : Fin cfg1.N) : Vec Ideal S8192x512 .bf16 := iblk1 V c 1 t
abbrev blkX (c : Dev nD) (t : Fin cfg1.N) : Vec Ideal S1024x512 .f32 := iblk1 V c 2 t
abbrev blkW (c : Dev nD) (t : Fin cfg1.N) : Vec Ideal S512x512 .f32 := iblk1 V c 3 t
abbrev blkB (c : Dev nD) (t : Fin cfg1.N) : Vec Ideal S512 .f32 := iblk1 V c 4 t

/-- Entry (p, k) of the adjacency block at point t is entry (1024 (t / 16) + p, 512 (t mod 16) + k) of the array. -/
theorem blkAdj_at (c : Dev nD) (t : Fin cfg1.N) (p : Fin 1024) (k : Fin 512) (l m : Fin 8192)
    (hl : l.val = 1024 * (t.val / 16) + p.val) (hm : m.val = 512 * (t.val % 16) + k.val) :
    blkAdj V c t (ix2 p k) = adjA V c (ix2 l m) := by
  obtain ⟨e0, e1, -⟩ := idx_facts1 t
  unfold blkAdj iblk1
  rw [View.read_apply]
  show V c main_arg1 _ = V c main_arg1 _
  refine congrArg (V c main_arg1) (funext fun a => Fin.ext ?_)
  match a with
  | ⟨0, _⟩ => show win1_0.index t (0 : Fin 2) * 1024 + 1 * p.val = l.val; rw [e0, hl]; omega
  | ⟨1, _⟩ => show win1_0.index t (1 : Fin 2) * 512 + 1 * k.val = m.val; rw [e1, hm]; omega

/-- The second window's block is the whole C array, at every point. -/
theorem blkC_at (c : Dev nD) (t : Fin cfg1.N) (l : Fin 8192) (q : Fin 512) :
    blkC V c t (ix2 l q) = cA V c (ix2 l q) := by
  obtain ⟨-, -, e0, e1, -⟩ := idx_facts1 t
  unfold blkC iblk1
  rw [View.read_apply]
  show V c main_v3 _ = V c main_v3 _
  refine congrArg (V c main_v3) (funext fun a => Fin.ext ?_)
  match a with
  | ⟨0, _⟩ => show win1_1.index t (0 : Fin 2) * 8192 + 1 * l.val = l.val; rw [e0]; omega
  | ⟨1, _⟩ => show win1_1.index t (1 : Fin 2) * 512 + 1 * q.val = q.val; rw [e1]; omega

/-- Row p of the x block at point t is row 1024 (t / 16) + p of x. -/
theorem blkX_at (c : Dev nD) (t : Fin cfg1.N) (p : Fin 1024) (k : Fin 512) (l : Fin 8192)
    (hl : l.val = 1024 * (t.val / 16) + p.val) :
    blkX V c t (ix2 p k) = xA V c (ix2 l k) := by
  obtain ⟨-, -, -, -, e0, e1, -⟩ := idx_facts1 t
  unfold blkX iblk1
  rw [View.read_apply]
  show V c main_arg2 _ = V c main_arg2 _
  refine congrArg (V c main_arg2) (funext fun a => Fin.ext ?_)
  match a with
  | ⟨0, _⟩ => show win1_2.index t (0 : Fin 2) * 1024 + 1 * p.val = l.val; rw [e0, hl]; omega
  | ⟨1, _⟩ => show win1_2.index t (1 : Fin 2) * 512 + 1 * k.val = k.val; rw [e1]; omega

/-- The fourth window's block is the whole third weight. -/
theorem blkW_at (c : Dev nD) (t : Fin cfg1.N) (k : Fin 512) (q : Fin 512) :
    blkW V c t (ix2 k q) = wA V c (ix2 k q) := by
  obtain ⟨-, -, -, -, -, -, e0, e1, -⟩ := idx_facts1 t
  unfold blkW iblk1
  rw [View.read_apply]
  show V c main_v2 _ = V c main_v2 _
  refine congrArg (V c main_v2) (funext fun a => Fin.ext ?_)
  match a with
  | ⟨0, _⟩ => show win1_3.index t (0 : Fin 2) * 512 + 1 * k.val = k.val; rw [e0]; omega
  | ⟨1, _⟩ => show win1_3.index t (1 : Fin 2) * 512 + 1 * q.val = q.val; rw [e1]; omega

/-- The fifth window's block is the whole bias vector. -/
theorem blkB_at (c : Dev nD) (t : Fin cfg1.N) (q : Fin 512) :
    blkB V c t (ix1 q) = bA V c (ix1 q) := by
  obtain ⟨-, -, -, -, -, -, -, -, e0, -⟩ := idx_facts1 t
  unfold blkB iblk1
  rw [View.read_apply]
  show V c main_arg4 _ = V c main_arg4 _
  refine congrArg (V c main_arg4) (funext fun a => Fin.ext ?_)
  match a with
  | ⟨0, _⟩ => show win1_4.index t (0 : Fin 1) * 512 + 1 * q.val = q.val; rw [e0]; omega

/-! ## The accumulator after each point -/

theorem accAfter_succ (adj : Cert.Spec.Mat 8192 8192) (C : Fin 8192 → Fin 512 → EReal) (x : Cert.Spec.Mat 8192 512)
    (w3 : Cert.Spec.Mat 512 512) (bias : Cert.Spec.Vc 512) (n : ℕ) (r : Fin 8192) (j : Fin 512) :
    Cert.Spec.accAfter adj C x w3 bias (n + 1) r j
      = Cert.Spec.accAfter adj C x w3 bias n r j + Cert.Spec.tileTerm adj C n r j := rfl

/-- Row p of the adjacency block at point t times column q of the rows of C loaded there is the specification's
    tile term of tile t mod 16 at row 1024 (t / 16) + p: the block's columns and the loaded rows are both
    numbers 512 (t mod 16) … 512 (t mod 16) + 511, which stay below 8192. -/
theorem tile_at (c : Dev nD) (t : Fin cfg1.N) (p : Fin 1024) (q : Fin 512) (r : Fin 8192)
    (hr : r.val = 1024 * (t.val / 16) + p.val) :
    (∑ k : Fin 512, blkAdj V c t (ix2 p k) * ctile (F := Ideal) (grid1.coords t) (blkC V c t) (ix2 k q))
      = Cert.Spec.tileTerm (adjA V c) (fun l j => cA V c (ix2 l j)) (t.val % 16) r q := by
  unfold Cert.Spec.tileTerm
  refine Finset.sum_congr rfl fun k _ => ?_
  have hk : k.val < 512 := k.isLt
  have hm : (Cert.Spec.tcol (t.val % 16) k).val = 512 * (t.val % 16) + k.val := by
    show (512 * (t.val % 16) + k.val) % 8192 = _
    omega
  exact congrArg₂ (· * ·) (blkAdj_at V c t p k r (Cert.Spec.tcol (t.val % 16) k) hr hm)
    ((ctile_at t (blkC V c t) k q (Cert.Spec.tcol (t.val % 16) k) hm).trans (blkC_at V c t (Cert.Spec.tcol (t.val % 16) k) q))

/-- At the first column tile of a row tile the accumulator holds x · W3 + bias plus the first tile term. -/
theorem scAt_first (c : Dev nD) (t : Fin cfg1.N) (h0 : t.val % 16 = 0) (p : Fin 1024) (q : Fin 512) (r : Fin 8192)
    (hr : r.val = 1024 * (t.val / 16) + p.val) :
    scAt V c t.val t.isLt (ix2 p q) = Cert.Spec.accAfter (adjA V c) (fun l j => cA V c (ix2 l j)) (xA V c) (wA V c) (bA V c) (t.val % 16 + 1) r q := by
  have h1 : ¬t.val % 16 = 15 := by omega
  rw [scAt_A V c t h0 h1]
  refine (congrFun (sout1_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (blkAdj V c t) (blkC V c t) (blkX V c t) (blkW V c t) (blkB V c t)) (ix2 p q)).trans ?_
  refine (pay2_at (ctile (F := Ideal) (grid1.coords t) (blkC V c t)) (blkAdj V c t) (k1_pay1 (blkX V c t) (blkW V c t) (blkB V c t)) p q).trans ?_
  refine Eq.trans ?_ (accAfter_succ (adjA V c) (fun l j => cA V c (ix2 l j)) (xA V c) (wA V c) (bA V c) (t.val % 16) r q).symm
  refine congrArg₂ (· + ·) ((pay1_at (blkX V c t) (blkW V c t) (blkB V c t) p q).trans ?_) (tile_at V c t p q r hr)
  rw [h0]
  show _ = Cert.Spec.acc0 (xA V c) (wA V c) (bA V c) r q
  unfold Cert.Spec.acc0
  exact congrArg₂ (· + ·) (Finset.sum_congr rfl fun k _ => congrArg₂ (· * ·) (blkX_at V c t p k r hr) (blkW_at V c t k q)) (blkB_at V c t q)

/-- At any later column tile the accumulator holds what the point before left plus this tile's term. -/
theorem scAt_next (c : Dev nD) (t : Fin cfg1.N) (h0 : ¬t.val % 16 = 0) (p : Fin 1024) (q : Fin 512) (r : Fin 8192)
    (hr : r.val = 1024 * (t.val / 16) + p.val)
    (ih : scAt V c (t.val - 1) (Nat.lt_of_le_of_lt (Nat.sub_le _ _) t.isLt) (ix2 p q) = Cert.Spec.accAfter (adjA V c) (fun l j => cA V c (ix2 l j)) (xA V c) (wA V c) (bA V c) (t.val % 16) r q) :
    scAt V c t.val t.isLt (ix2 p q) = Cert.Spec.accAfter (adjA V c) (fun l j => cA V c (ix2 l j)) (xA V c) (wA V c) (bA V c) (t.val % 16 + 1) r q := by
  have key : k1_pay2 (F := Ideal) (ctile (F := Ideal) (grid1.coords t) (blkC V c t)) (blkAdj V c t) (scAt V c (t.val - 1) (Nat.lt_of_le_of_lt (Nat.sub_le _ _) t.isLt)) (ix2 p q)
      = Cert.Spec.accAfter (adjA V c) (fun l j => cA V c (ix2 l j)) (xA V c) (wA V c) (bA V c) (t.val % 16 + 1) r q := by
    refine (pay2_at (ctile (F := Ideal) (grid1.coords t) (blkC V c t)) (blkAdj V c t) (scAt V c (t.val - 1) (Nat.lt_of_le_of_lt (Nat.sub_le _ _) t.isLt)) p q).trans ?_
    refine Eq.trans ?_ (accAfter_succ (adjA V c) (fun l j => cA V c (ix2 l j)) (xA V c) (wA V c) (bA V c) (t.val % 16) r q).symm
    exact congrArg₂ (· + ·) ih (tile_at V c t p q r hr)
  by_cases h1 : t.val % 16 = 15
  · rw [scAt_C V c t h0 h1]
    exact (congrFun (sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blkAdj V c t) (blkC V c t) (blkX V c t) (blkW V c t) (blkB V c t) (scAt V c (t.val - 1) (Nat.lt_of_le_of_lt (Nat.sub_le _ _) t.isLt))) (ix2 p q)).trans key
  · rw [scAt_B V c t h0 h1]
    exact (congrFun (sout1_B_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (blkAdj V c t) (blkC V c t) (blkX V c t) (blkW V c t) (blkB V c t) (scAt V c (t.val - 1) (Nat.lt_of_le_of_lt (Nat.sub_le _ _) t.isLt))) (ix2 p q)).trans key

/-- THE INVARIANT: after point n = 16 m + k the accumulator holds, at row p and column q, the specification's
    accumulator after tiles 0 … k at row 1024 m + p — by induction on the point. -/
theorem scAt_eq (c : Dev nD) : ∀ (n : ℕ) (hn : n < cfg1.N) (p : Fin 1024) (q : Fin 512) (r : Fin 8192),
    r.val = 1024 * (n / 16) + p.val →
    scAt V c n hn (ix2 p q) = Cert.Spec.accAfter (adjA V c) (fun l j => cA V c (ix2 l j)) (xA V c) (wA V c) (bA V c) (n % 16 + 1) r q
  | 0, hn, p, q, r, hr => scAt_first V c ⟨0, hn⟩ (Nat.zero_mod 16) p q r hr
  | n + 1, hn, p, q, r, hr => by
    by_cases h0 : (n + 1) % 16 = 0
    · exact scAt_first V c ⟨n + 1, hn⟩ h0 p q r hr
    · refine scAt_next V c ⟨n + 1, hn⟩ h0 p q r hr ?_
      have e : (n + 1) % 16 = n % 16 + 1 := by omega
      have ih := scAt_eq c n (Nat.lt_of_succ_lt hn) p q r (by rw [hr]; omega)
      show scAt V c n _ (ix2 p q) = Cert.Spec.accAfter (adjA V c) (fun l j => cA V c (ix2 l j)) (xA V c) (wA V c) (bA V c) ((n + 1) % 16) r q
      rw [e]; exact ih

/-! ## What the last column tile writes back, and the array after the region -/

/-- The specification's result of the five arrays as the region finds them, as one array. -/
abbrev Garr (c : Dev nD) : S8192x512.Idx → EReal :=
  fun i => Cert.Spec.accAfter (adjA V c) (fun l j => cA V c (ix2 l j)) (xA V c) (wA V c) (bA V c) 16 (i 0) (i 1)

/-- At a last column tile the output block is left holding what the accumulator holds there. -/
theorem outAt5_eq_scAt (c : Dev nD) (t : Fin cfg1.N) (h1 : t.val % 16 = 15) : outAt5 V c t = scAt V c t.val t.isLt := by
  have h0 : ¬t.val % 16 = 0 := by omega
  rw [outAt5_C V c t h0 h1, scAt_C V c t h0 h1]
  exact (out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blkAdj V c t) (blkC V c t) (blkX V c t) (blkW V c t) (blkB V c t) (scAt V c (t.val - 1) (Nat.lt_of_le_of_lt (Nat.sub_le _ _) t.isLt))).trans
    (sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blkAdj V c t) (blkC V c t) (blkX V c t) (blkW V c t) (blkB V c t) (scAt V c (t.val - 1) (Nat.lt_of_le_of_lt (Nat.sub_le _ _) t.isLt))).symm

/-- What a point that writes back (a last column tile, t = 16 m + 15) writes is block m of the result: all sixteen
    tiles have been added at rows 1024 m … 1024 m + 1023. -/
theorem flushed1_5_eq (c : Dev nD) (t : Fin cfg1.N) (hf : (cfg1.win 5).flush t = true) :
    (dat1 (F := Ideal) V c).flushed 5 t = ((cfg1.win 5).blk t).view.read (Elt Ideal) (Garr V c) := by
  have h1 : t.val % 16 = 15 := (flush1_5 t).mp hf
  show (cfg1.win 5).cut (grid1.coords t) ((dat1 V c).after 5 t) = _
  rw [after1_5, outAt5_eq_scAt V c t h1]
  funext y
  have hy0 : (y 0).val < 1024 := (y 0).isLt
  have hy1 : (y 1).val < 512 := (y 1).isLt
  obtain ⟨-, -, -, -, -, -, -, -, -, e0, e1, -⟩ := idx_facts1 t
  have hN : cfg1.N = 128 := N_1
  have ht : t.val < cfg1.N := t.isLt
  have e16 : t.val % 16 + 1 = 16 := by omega
  have hx : (cfg1.win 5).xinj (grid1.coords t) y = ix2 (⟨(y 0).val, hy0⟩ : Fin 1024) (⟨(y 1).val, hy1⟩ : Fin 512) :=
    funext fun a => by match a with | ⟨0, _⟩ => rfl | ⟨1, _⟩ => rfl
  refine (congrArg (scAt V c t.val t.isLt) hx).trans ?_
  refine (scAt_eq V c t.val t.isLt ⟨(y 0).val, hy0⟩ ⟨(y 1).val, hy1⟩ ⟨1024 * (t.val / 16) + (y 0).val, by omega⟩ rfl).trans ?_
  rw [e16, View.read_apply]
  show _ = Cert.Spec.accAfter (adjA V c) (fun l j => cA V c (ix2 l j)) (xA V c) (wA V c) (bA V c) 16 ((((cfg1.win 5).blk t).view.emb y) 0) ((((cfg1.win 5).blk t).view.emb y) 1)
  refine congrArg₂ (Cert.Spec.accAfter (adjA V c) (fun l j => cA V c (ix2 l j)) (xA V c) (wA V c) (bA V c) 16) (Fin.ext ?_) (Fin.ext ?_)
  · show 1024 * (t.val / 16) + (y 0).val = win1_5.index t (0 : Fin 2) * 1024 + 1 * (y 0).val
    rw [e0]; omega
  · show (y 1).val = win1_5.index t (1 : Fin 2) * 512 + 1 * (y 1).val
    rw [e1]; omega

/-- An index of the output array is in point t's block iff each coordinate is in the block's range on its axis. -/
theorem mem_blk1_5 (t : Fin cfg1.N) (i : S8192x512.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v4).slice (win1_5.rect t)).set ↔ _
  rw [View.set_slice_whole, Rect.mem_set_unit]
  exact Iff.rfl

/-- Row r of the output array lies in the block of the point 16 (r / 1024) + 15, a last column tile, which writes its
    block back: the eight blocks written back fill the array. -/
theorem blocks_fill1_5 (i : S8192x512.Idx) :
    ∃ t : Fin cfg1.N, (cfg1.win 5).flush t = true ∧ i ∈ ((cfg1.win 5).blk t).view.set := by
  have hi0 : (i 0).val < 8192 := (i 0).isLt
  have hi1 : (i 1).val < 512 := (i 1).isLt
  have hN : cfg1.N = 128 := N_1
  obtain ⟨t, ht⟩ : ∃ t : Fin cfg1.N, t.val = 16 * ((i 0).val / 1024) + 15 := ⟨⟨16 * ((i 0).val / 1024) + 15, by rw [hN]; omega⟩, rfl⟩
  obtain ⟨-, -, -, -, -, -, -, -, -, e0, e1, -⟩ := idx_facts1 t
  refine ⟨t, (flush1_5 t).mpr (by rw [ht]; omega), ?_⟩
  rw [mem_blk1_5]
  intro a
  match a with
  | ⟨0, _⟩ =>
    show win1_5.index t (0 : Fin 2) * 1024 ≤ (i 0).val ∧ (i 0).val < win1_5.index t (0 : Fin 2) * 1024 + 1024
    rw [e0, ht]; omega
  | ⟨1, _⟩ =>
    show win1_5.index t (1 : Fin 2) * 512 ≤ (i 1).val ∧ (i 1).val < win1_5.index t (1 : Fin 2) * 512 + 512
    rw [e1]; omega

end Cert.KernelIdeal.Frm.Val1

namespace Cert.KernelIdeal.Frm

open Cert.KernelIdeal Cert.KernelIdeal.Gen Idealize.ShloMosaic Idealize.ShloMosaic.TcCoe Idealize.SL.Sem Idealize.ShloMosaic.ValueIdx

/-- After the region the output array holds, index by index, the specification's accumulator after all sixteen
    column tiles, of the five arrays as the region found them: each last column tile writes back its block of it,
    and those blocks fill the array. -/
theorem arrAt1_5 (V : (c : Dev nD) → (b : Ref sig .tc) → Buf (Elt Ideal) ((c : Thread nD τ).loc b)) (c : Dev nD) :
    (dat1 (F := Ideal) V c).arrAt 5 cfg1.N
      = fun i => Cert.Spec.accAfter (V c main_arg1) (fun l j => V c main_v3 (ix2 l j)) (V c main_arg2) (V c main_v2) (V c main_arg4) 16 (i 0) (i 1) :=
  (dat1 (F := Ideal) V c).arrAt_eq_of_cover 5 (Val1.Garr V c) (fun t hf => Val1.flushed1_5_eq V c t hf) Val1.blocks_fill1_5

end Cert.KernelIdeal.Frm

end
-- ==== Proof.KI.Slices.lean ====
/-
  The three slices at the start of the program. The stacked weight has 9216 rows and 512 columns; the program first
  cuts it into rows 0..511, rows 512..8703 and rows 8704..9215, all 512 columns each. Read at row r and column q, each
  slice is the stacked weight at row (first row of the slice) + r and column q.
-/
import proofs.«106925_j33655363732151_1_alg».proof.Proof.Gen.KernelIdeal.Launch
import proofs.«106925_j33655363732151_1_alg».proof.Proof.Spec
import Idealize.ShloMosaic.Lib.StableHlo.Run
import Idealize.ShloMosaic.Lib.Pipeline.Value
import Idealize.ShloMosaic.Lib.ValueIdx

noncomputable section

namespace Cert.KernelIdeal.Frm

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- After the three slices, the first result holds rows 0..511 of the stacked weight as the program found it. -/
theorem entry_main_v0 : StableHlo.after (hostOps0 (F := Ideal)) (fun b => m ((c : Dev nD), b)) (Proc.devRef .tc main_v0)
    = Cert.Spec.sl1 (m ((c.tc : Thread nD τ).loc main_arg3)) := by
  have e : StableHlo.after (hostOps0 (F := Ideal)) (fun b => m ((c : Dev nD), b)) (Proc.devRef .tc main_v0)
      = extractStridedSlice S512x512 ![0, 0] (m ((c.tc : Thread nD τ).loc main_arg3)) slices_S9216x512_S512x512_0_0 := by
    simp only [hostOps0]; after_results
  rw [e]
  funext i
  refine extractStridedSlice_apply _ _ _ i _ (fun a => ?_)
  match a with
  | ⟨0, _⟩ => exact (Nat.zero_add _).symm
  | ⟨1, _⟩ => exact (Nat.zero_add _).symm

/-- After the three slices, the second result holds rows 512..8703 of the stacked weight as the program found it. -/
theorem entry_main_v1 : StableHlo.after (hostOps0 (F := Ideal)) (fun b => m ((c : Dev nD), b)) (Proc.devRef .tc main_v1)
    = Cert.Spec.sl2 (m ((c.tc : Thread nD τ).loc main_arg3)) := by
  have e : StableHlo.after (hostOps0 (F := Ideal)) (fun b => m ((c : Dev nD), b)) (Proc.devRef .tc main_v1)
      = extractStridedSlice S8192x512 ![512, 0] (m ((c.tc : Thread nD τ).loc main_arg3)) slices_S9216x512_S8192x512_512_0 := by
    simp only [hostOps0]; after_results
  rw [e]
  funext i
  refine extractStridedSlice_apply _ _ _ i _ (fun a => ?_)
  match a with
  | ⟨0, _⟩ => rfl
  | ⟨1, _⟩ => exact (Nat.zero_add _).symm

/-- After the three slices, the third result holds rows 8704..9215 of the stacked weight as the program found it. -/
theorem entry_main_v2 : StableHlo.after (hostOps0 (F := Ideal)) (fun b => m ((c : Dev nD), b)) (Proc.devRef .tc main_v2)
    = Cert.Spec.sl3 (m ((c.tc : Thread nD τ).loc main_arg3)) := by
  have e : StableHlo.after (hostOps0 (F := Ideal)) (fun b => m ((c : Dev nD), b)) (Proc.devRef .tc main_v2)
      = extractStridedSlice S512x512 ![8704, 0] (m ((c.tc : Thread nD τ).loc main_arg3)) slices_S9216x512_S512x512_8704_0 := by
    simp only [hostOps0]; after_results
  rw [e]
  funext i
  refine extractStridedSlice_apply _ _ _ i _ (fun a => ?_)
  match a with
  | ⟨0, _⟩ => rfl
  | ⟨1, _⟩ => exact (Nat.zero_add _).symm

end Cert.KernelIdeal.Frm

end
-- ==== Proof.KI.Value.lean ====
/-
  The idealized kernel program's result as a function of the launch memory. The second region's output array ends
  at the accumulator after all sixteen tiles, computed from the arrays that region found; those are the launch
  arguments adj, x and bias unchanged, the third slice of the stacked weight, and the first region's output C, which is
  input · W1 + W2 of the launch argument and the first two slices. Put together, the result is the specification's
  kernel-side function of the five launch arguments.
-/
import proofs.«106925_j33655363732151_1_alg».proof.Proof.KI.Run
import proofs.«106925_j33655363732151_1_alg».proof.Proof.KI.Val0
import proofs.«106925_j33655363732151_1_alg».proof.Proof.KI.Val1
import proofs.«106925_j33655363732151_1_alg».proof.Proof.KI.Slices
import proofs.«106925_j33655363732151_1_alg».proof.Proof.Spec

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The kernel program's result on core c, as a function of the launch memory. -/
def kerOut (c : Dev nD) : Buf (Elt Ideal) ((c.tc : Thread nD τ).loc main_v4) :=
  fun i => Cert.Spec.Gker (m ((c.tc : Thread nD τ).loc main_arg1)) (m ((c.tc : Thread nD τ).loc main_arg0)) (m ((c.tc : Thread nD τ).loc main_arg2))
    (Cert.Spec.sl1 (m ((c.tc : Thread nD τ).loc main_arg3))) (Cert.Spec.sl2 (m ((c.tc : Thread nD τ).loc main_arg3)))
    (Cert.Spec.sl3 (m ((c.tc : Thread nD τ).loc main_arg3))) (m ((c.tc : Thread nD τ).loc main_arg4)) (i 0) (i 1)

/-- What the first region finds: the launch argument and the first two slices. -/
theorem V1_arg0 (c : Dev nD) : V1 m ρ c main_arg0 = m ((c.tc : Thread nD τ).loc main_arg0) := W1_of m ρ c main_arg0 (by decide)
theorem V1_v0 (c : Dev nD) : V1 m ρ c main_v0 = Cert.Spec.sl1 (m ((c.tc : Thread nD τ).loc main_arg3)) := entry_main_v0 m c
theorem V1_v1 (c : Dev nD) : V1 m ρ c main_v1 = Cert.Spec.sl2 (m ((c.tc : Thread nD τ).loc main_arg3)) := entry_main_v1 m c

/-- What the second region finds. -/
theorem V2_arg1 (c : Dev nD) : V2 m ρ c main_arg1 = m ((c.tc : Thread nD τ).loc main_arg1) :=
  (W2_of_ne m ρ c main_arg1 (by decide)).trans (W1_of m ρ c main_arg1 (by decide))
theorem V2_arg2 (c : Dev nD) : V2 m ρ c main_arg2 = m ((c.tc : Thread nD τ).loc main_arg2) :=
  (W2_of_ne m ρ c main_arg2 (by decide)).trans (W1_of m ρ c main_arg2 (by decide))
theorem V2_arg4 (c : Dev nD) : V2 m ρ c main_arg4 = m ((c.tc : Thread nD τ).loc main_arg4) :=
  (W2_of_ne m ρ c main_arg4 (by decide)).trans (W1_of m ρ c main_arg4 (by decide))
theorem V2_v2 (c : Dev nD) : V2 m ρ c main_v2 = Cert.Spec.sl3 (m ((c.tc : Thread nD τ).loc main_arg3)) :=
  (W2_of_ne m ρ c main_v2 (by decide)).trans (entry_main_v2 m c)
/-- The first region's output, as the second region finds it: C of the launch argument and the two slices. -/
theorem V2_v3 (c : Dev nD) (l : Fin 8192) (j : Fin 512) :
    V2 m ρ c main_v3 (ix2 l j) = Cert.Spec.Cof (m ((c.tc : Thread nD τ).loc main_arg0)) (Cert.Spec.sl1 (m ((c.tc : Thread nD τ).loc main_arg3)))
      (Cert.Spec.sl2 (m ((c.tc : Thread nD τ).loc main_arg3))) l j := by
  have h := (W2_arr m ρ c 3).trans (arrAt0_3 (V1 m ρ) c)
  rw [V1_arg0 m ρ c, V1_v0 m ρ c, V1_v1 m ρ c] at h
  exact congrFun h (ix2 l j)

/-- The result array's final contents are the kernel-side specification of the launch arguments. -/
theorem arrAt_final (c : Dev nD) : (dat1 (F := Ideal) (V2 m ρ) c).arrAt 5 cfg1.N = kerOut m c := by
  rw [arrAt1_5 (V2 m ρ) c, V2_arg1 m ρ c, V2_arg2 m ρ c, V2_arg4 m ρ c, V2_v2 m ρ c]
  have hC : (fun (l : Fin 8192) (j : Fin 512) => V2 m ρ c main_v3 (ix2 l j))
      = Cert.Spec.Cof (m ((c.tc : Thread nD τ).loc main_arg0)) (Cert.Spec.sl1 (m ((c.tc : Thread nD τ).loc main_arg3)))
          (Cert.Spec.sl2 (m ((c.tc : Thread nD τ).loc main_arg3))) := funext fun l => funext fun j => V2_v3 m ρ c l j
  rw [hC]
  rfl

/-- The idealized kernel program runs to the end with its result at `kerOut` and its arguments unchanged. -/
theorem run_ker : θ_run defs (onTc (τ := τ) (main (F := Ideal))) ⟨m, fun _ => 0, ρ⟩ (fun r => ∀ c : Dev nD,
      r.2.mem ((c.tc : Thread nD τ).loc main_v4) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (arrAt_final m ρ c), (h c).2⟩) (run_res (F := Ideal) m ρ)

end Cert.KernelIdeal.Frm

end
-- ==== Proof.Ref.lean ====
/-
  The reference side of the value bridge: the idealized reference program's result, read index by index, is the
  specification function Gref of the five argument arrays.

  The reference joins [adj · input | adj | x] along the column axis and multiplies the join by the stacked weight,
  then adds the bias row. The only operation not already read at an index is the join: at column k it is the first
  piece for k < 512, the second at k - 512 for 512 ≤ k < 8704, the third at k - 8704 otherwise. That is the
  specification's support row once the first piece is read as the sum over the shared axis.
-/
import proofs.«106925_j33655363732151_1_alg».proof.Proof.Gen.ReferenceIdeal.Read
import proofs.«106925_j33655363732151_1_alg».proof.Proof.Spec

noncomputable section

namespace Cert.ReferenceIdeal.RefValue
open Cert.ReferenceIdeal Idealize.ShloMosaic Idealize.ShloMosaic.TcCoe Idealize.SL.Sem
open Idealize.ShloMosaic.ValueIdx

/-! ## The index functions of the two products and of the bias, over literal coordinates -/

/-- The left index of the first product is (row, shared). -/
theorem lidx_v0_eq (r : Fin 8192) (j : Fin 512) (l : Fin 8192) : Read.lidx_main_v0 (ix2 r j) l = ix2 r l :=
  funext fun a => by match a with | ⟨0, _⟩ => rfl | ⟨1, _⟩ => rfl

/-- The right index of the first product is (shared, column). -/
theorem ridx_v0_eq (r : Fin 8192) (j : Fin 512) (l : Fin 8192) : Read.ridx_main_v0 (ix2 r j) l = ix2 l j :=
  funext fun a => by match a with | ⟨0, _⟩ => rfl | ⟨1, _⟩ => rfl

/-- The left index of the second product is (row, joined column). -/
theorem lidx_v2_eq (r : Fin 8192) (j : Fin 512) (k : Fin 9216) : Read.lidx_main_v2 (ix2 r j) k = ix2 r k :=
  funext fun a => by match a with | ⟨0, _⟩ => rfl | ⟨1, _⟩ => rfl

/-- The right index of the second product is (joined column, column). -/
theorem ridx_v2_eq (r : Fin 8192) (j : Fin 512) (k : Fin 9216) : Read.ridx_main_v2 (ix2 r j) k = ix2 k j :=
  funext fun a => by match a with | ⟨0, _⟩ => rfl | ⟨1, _⟩ => rfl

/-- The bias is read at the column, whatever the row. -/
theorem idx_v3_v4_eq (r : Fin 8192) (j : Fin 512) : Read.idx_main_v3 (Read.idx_main_v4 (ix2 r j)) = ix1 j :=
  funext fun a => by match a with | ⟨0, _⟩ => rfl

/-! ## The join, read at an index -/

/-- The join at (r, k) is the specification's support row: the first piece (the product adj · input) below 512,
    adj shifted by 512 up to 8704, x shifted by 8704 from there on. -/
theorem val_main_v1_apply (x0 : (⟨S8192x512, .f32⟩ : BufTy).Contents (Elt Ideal))
    (x1 : (⟨S8192x8192, .f32⟩ : BufTy).Contents (Elt Ideal)) (x2 : (⟨S8192x512, .f32⟩ : BufTy).Contents (Elt Ideal))
    (r : Fin 8192) (k : Fin 9216) :
    Read.val_main_v1 (F := Ideal) x0 x1 x2 (ix2 r k) = Cert.Spec.support x1 x0 x2 r k := by
  unfold Read.val_main_v1 Cert.Spec.support
  by_cases h : k.val < 512
  · rw [dif_pos h]
    rw [concatenate_apply_piece (1 : Fin 2) _ _ (ix2 r k) 0 (by show 0 < 3; omega) S8192x512
      (Read.val_main_v0 (F := Ideal) x0 x1) rfl rfl 0 rfl
      (ix2 r ⟨k.val, h⟩) (fun b hb => by match b with | ⟨0, _⟩ => rfl | ⟨1, _⟩ => exact absurd rfl hb) (Nat.zero_add _)]
    rw [Read.val_main_v0_apply]
    refine Finset.sum_congr rfl fun l _ => ?_
    rw [lidx_v0_eq, ridx_v0_eq]
  · rw [dif_neg h]
    by_cases h2 : k.val < 8704
    · rw [dif_pos h2]
      exact concatenate_apply_piece (1 : Fin 2) _ _ (ix2 r k) 1 (by show 1 < 3; omega) S8192x8192 x1 rfl rfl 512 rfl
        (ix2 r ⟨k.val - 512, by omega⟩) (fun b hb => by match b with | ⟨0, _⟩ => rfl | ⟨1, _⟩ => exact absurd rfl hb)
        (by show 512 + (k.val - 512) = k.val; omega)
    · rw [dif_neg h2]
      exact concatenate_apply_piece (1 : Fin 2) _ _ (ix2 r k) 2 (by show 2 < 3; omega) S8192x512 x2 rfl rfl 8704 rfl
        (ix2 r ⟨k.val - 8704, by omega⟩) (fun b hb => by match b with | ⟨0, _⟩ => rfl | ⟨1, _⟩ => exact absurd rfl hb)
        (by show 8704 + (k.val - 8704) = k.val; omega)

/-! ## The whole reference -/

/-- The reference's composed term at (r, j) is Gref there. -/
theorem val_main_v5_at (x0 : (⟨S8192x512, .f32⟩ : BufTy).Contents (Elt Ideal))
    (x1 : (⟨S8192x8192, .f32⟩ : BufTy).Contents (Elt Ideal)) (x2 : (⟨S8192x512, .f32⟩ : BufTy).Contents (Elt Ideal))
    (x3 : (⟨S9216x512, .f32⟩ : BufTy).Contents (Elt Ideal)) (x4 : (⟨S512, .f32⟩ : BufTy).Contents (Elt Ideal))
    (r : Fin 8192) (j : Fin 512) :
    Read.val_main_v5 (F := Ideal) x0 x1 x2 x3 x4 (ix2 r j) = Cert.Spec.Gref x1 x0 x2 x3 x4 r j := by
  rw [Read.val_main_v5_apply, Read.val_main_v2_apply, Read.val_main_v4_apply, Read.val_main_v3_apply, idx_v3_v4_eq,
    Ideal.addf_def]
  unfold Cert.Spec.Gref
  congr 1
  refine Finset.sum_congr rfl fun k _ => ?_
  rw [lidx_v2_eq, ridx_v2_eq, val_main_v1_apply]

/-- The reference's composed term is Gref of the arguments, as a function of the index. -/
theorem val_main_v5_fun (x0 : (⟨S8192x512, .f32⟩ : BufTy).Contents (Elt Ideal))
    (x1 : (⟨S8192x8192, .f32⟩ : BufTy).Contents (Elt Ideal)) (x2 : (⟨S8192x512, .f32⟩ : BufTy).Contents (Elt Ideal))
    (x3 : (⟨S9216x512, .f32⟩ : BufTy).Contents (Elt Ideal)) (x4 : (⟨S512, .f32⟩ : BufTy).Contents (Elt Ideal)) :
    Read.val_main_v5 (F := Ideal) x0 x1 x2 x3 x4 = fun i => Cert.Spec.Gref x1 x0 x2 x3 x4 (i 0) (i 1) :=
  funext fun i => (congrArg (Read.val_main_v5 (F := Ideal) x0 x1 x2 x3 x4) (eq_ix2 (n0 := 8192) (n1 := 512) i)).trans
    (val_main_v5_at x0 x1 x2 x3 x4 (i 0) (i 1))

/-- The reference's result on core c, as a function of the launch memory. -/
def refOut (m : (ℓ : Loc nD τ sig) → Buf (Elt Ideal) ℓ) (c : Dev nD) : Buf (Elt Ideal) ((c.tc : Thread nD τ).loc main_v5) :=
  fun i => Cert.Spec.Gref (m ((c.tc : Thread nD τ).loc main_arg1)) (m ((c.tc : Thread nD τ).loc main_arg0)) (m ((c.tc : Thread nD τ).loc main_arg2))
    (m ((c.tc : Thread nD τ).loc main_arg3)) (m ((c.tc : Thread nD τ).loc main_arg4)) (i 0) (i 1)

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (by
      rw [Read.val_main_v5_eq]
      exact val_main_v5_fun _ _ _ _ _), (h c).2⟩)
    (Cert.ReferenceIdeal.Value.run (F := Ideal) m ρ)

end Cert.ReferenceIdeal.RefValue

end
-- ==== Proof.Finite.lean ====
/-
  The precondition read back. The predicate takes, for each of the five arrays, the conjunction over all entries
  of "|x| < +∞", and then the conjunction of the five results. If the whole is true, each of the five is true, so
  every entry of every array has |x| < +∞; on the extended reals, where |x| is max x (-x), that leaves only the
  real numbers: at ⊤ and at ⊥ the maximum is ⊤, which is not below ⊤.
-/
import proofs.«106925_j33655363732151_1_alg».proof.Pre_finite_inputs
import proofs.«106925_j33655363732151_1_alg».proof.Proof.Gen.Pre_finite_inputs
import proofs.«106925_j33655363732151_1_alg».proof.Proof.Spec
import Idealize.ShloMosaic.Lib.ReduceAll
import Idealize.ShloMosaic.Lib.ValueIdx
import Idealize.ShloMosaic.PureOps.Ideal.Laws

namespace Cert.Finite

open Idealize.ShloMosaic Cert.Pre_finite_inputs

/-- The pattern 0x7F800000 denotes +∞. -/
theorem inf_word : Ideal.ofBits .f32 0x7F800000#32 = (⊤ : EReal) := by
  simp [Ideal.ofBits, Ideal.ieee]

/-- One entry: an extended real whose absolute value compares below +∞ is a real number. -/
theorem real_of_abs_lt_inf (x : Ideal .f32)
    (h : FloatOps.cmpf .olt (FloatOps.hostAbsf x) (FloatOps.ofBits (F := Ideal) .f32 0x7F800000#32) = 1#1) :
    ∃ y : ℝ, (x : EReal) = (y : EReal) := by
  have h' : Ideal.cmp .olt (max (x : EReal) (-(x : EReal))) (Ideal.ofBits .f32 0x7F800000#32) = 1#1 := h
  rw [inf_word] at h'
  induction x using EReal.rec with
  | bot => exact absurd h' (by simp [Ideal.cmp])
  | coe y => exact ⟨y, rfl⟩
  | top => exact absurd h' (by simp [Ideal.cmp])

/-- The only index of the rank-0 shape. -/
instance subsingleton_S_Idx : Subsingleton S_.Idx := ⟨fun _ _ => funext fun d => d.elim0⟩

/-- One array, of any shape: if the conjunction over all its entries of "|x| < +∞" is true, every entry is real. -/
theorem isReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu
          ValueIdx.ix0 = 1#1) :
    Cert.Spec.IsReal a := by
  intro i
  exact real_of_abs_lt_inf (a i) (Host.reduce_andi_all _ init hr hu ValueIdx.ix0 e i)

theorem isReal_of_pre [Cert.Pre_finite_inputs.Facts]
    (a0 : FVec Ideal S8192x512 .f32) (a1 : FVec Ideal S8192x8192 .f32) (a2 : FVec Ideal S8192x512 .f32)
    (a3 : FVec Ideal S9216x512 .f32) (a4 : FVec Ideal S512 .f32)
    (h : Cert.Pre_finite_inputs.fn (F := Ideal) a0 a1 a2 a3 a4 = (fun _ => 1#1)) :
    Cert.Spec.IsReal a0 ∧ Cert.Spec.IsReal a1 ∧ Cert.Spec.IsReal a2 ∧ Cert.Spec.IsReal a3 ∧ Cert.Spec.IsReal a4 := by
  have h0 := congrFun h ValueIdx.ix0
  dsimp only [Cert.Pre_finite_inputs.fn, Cert.Pre_finite_inputs.fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ _ _ _ e0, isReal_of_all a1 _ _ _ _ e1, isReal_of_all a2 _ _ _ _ e2,
    isReal_of_all a3 _ _ _ _ e3, isReal_of_all a4 _ _ _ _ e4⟩

end Cert.Finite
-- ==== Proof.Algebra.lean ====
/-
  The kernel's result and the reference's result are the same extended real whenever every entry is a real number.

  With real entries both sides are finite sums of products of reals, so each is the image of one real number under the
  inclusion of the reals; the two real numbers agree because the sixteen tiles of 512 columns are exactly the 8192
  columns of adj, the 9216 rows of the stacked weight are its three slices one after the other, and a finite double
  sum may be taken in either order.
-/
import proofs.«106925_j33655363732151_1_alg».proof.Proof.Spec
import Mathlib.Algebra.BigOperators.Fin
import Mathlib.Algebra.BigOperators.Ring.Finset
import Mathlib.Data.EReal.Basic
import Mathlib.Logic.Equiv.Fin.Basic
import Mathlib.Tactic.Ring

noncomputable section

namespace Cert.Spec

open Idealize.ShloMosaic Idealize.ShloMosaic.ValueIdx

/-! ## Real numbers inside the extended reals -/

/-- The inclusion of the reals carries a finite sum to the sum of the images. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real entries is the image of a real-valued family. -/
theorem exists_real {α : Type} {f : α → EReal} (h : IsReal f) : ∃ g : α → ℝ, f = fun i => (g i : EReal) := by
  choose g hg using h
  exact ⟨g, funext hg⟩

/-- Real matrices and vectors over literal extents. -/
abbrev MatR (a b : Nat) : Type := (⟨2, ![a, b]⟩ : Shape).Idx → ℝ
abbrev VcR (a : Nat) : Type := (⟨1, ![a]⟩ : Shape).Idx → ℝ

/-- The three row slices of a real stacked weight. -/
def sl1R (w : MatR 9216 512) : MatR 512 512 := fun i => w (ix2 (rowW1 (i 0)) (i 1))
def sl2R (w : MatR 9216 512) : MatR 8192 512 := fun i => w (ix2 (rowW2 (i 0)) (i 1))
def sl3R (w : MatR 9216 512) : MatR 512 512 := fun i => w (ix2 (rowW3 (i 0)) (i 1))

/-- The real counterparts of the pieces of the two results. -/
def CofR (inp : MatR 8192 512) (w1 : MatR 512 512) (w2 : MatR 8192 512) (l : Fin 8192) (j : Fin 512) : ℝ :=
  (∑ k : Fin 512, inp (ix2 l k) * w1 (ix2 k j)) + w2 (ix2 l j)

def tileR (a : MatR 8192 8192) (c : Fin 8192 → Fin 512 → ℝ) (s : ℕ) (r : Fin 8192) (j : Fin 512) : ℝ :=
  ∑ k : Fin 512, a (ix2 r (tcol s k)) * c (tcol s k) j

def acc0R (x : MatR 8192 512) (w3 : MatR 512 512) (b : VcR 512) (r : Fin 8192) (j : Fin 512) : ℝ :=
  (∑ k : Fin 512, x (ix2 r k) * w3 (ix2 k j)) + b (ix1 j)

def supportR (a : MatR 8192 8192) (inp : MatR 8192 512) (x : MatR 8192 512) (r : Fin 8192) (k : Fin 9216) : ℝ :=
  if h : k.val < 512 then ∑ l : Fin 8192, a (ix2 r l) * inp (ix2 l ⟨k.val, h⟩)
  else if h2 : k.val < 8704 then a (ix2 r ⟨k.val - 512, by omega⟩)
  else x (ix2 r ⟨k.val - 8704, by omega⟩)

/-! ## Each piece over real entries is the image of its real counterpart -/

theorem Cof_coe (inp : MatR 8192 512) (w1 : MatR 512 512) (w2 : MatR 8192 512) :
    Cof (fun i => (inp i : EReal)) (fun i => (w1 i : EReal)) (fun i => (w2 i : EReal))
      = fun l j => (CofR inp w1 w2 l j : EReal) := by
  funext l j
  simp only [Cof, CofR, EReal.coe_add, coe_finsum, EReal.coe_mul]

theorem tileTerm_coe (a : MatR 8192 8192) (c : Fin 8192 → Fin 512 → ℝ) (s : ℕ) (r : Fin 8192) (j : Fin 512) :
    tileTerm (fun i => (a i : EReal)) (fun l j => (c l j : EReal)) s r j = (tileR a c s r j : EReal) := by
  simp only [tileTerm, tileR, coe_finsum, EReal.coe_mul]

theorem acc0_coe (x : MatR 8192 512) (w3 : MatR 512 512) (b : VcR 512) (r : Fin 8192) (j : Fin 512) :
    acc0 (fun i => (x i : EReal)) (fun i => (w3 i : EReal)) (fun i => (b i : EReal)) r j = (acc0R x w3 b r j : EReal) := by
  simp only [acc0, acc0R, EReal.coe_add, coe_finsum, EReal.coe_mul]

/-- After n tiles the accumulator is the image of the reset value plus the first n real tile terms. -/
theorem accAfter_coe (a : MatR 8192 8192) (c : Fin 8192 → Fin 512 → ℝ) (x : MatR 8192 512) (w3 : MatR 512 512)
    (b : VcR 512) (n : ℕ) (r : Fin 8192) (j : Fin 512) :
    accAfter (fun i => (a i : EReal)) (fun l j => (c l j : EReal)) (fun i => (x i : EReal)) (fun i => (w3 i : EReal))
        (fun i => (b i : EReal)) n r j
      = ((acc0R x w3 b r j + ∑ s ∈ Finset.range n, tileR a c s r j : ℝ) : EReal) := by
  induction n with
  | zero =>
    rw [Finset.range_zero, Finset.sum_empty, add_zero]
    exact acc0_coe x w3 b r j
  | succ n ih =>
    show accAfter (fun i => (a i : EReal)) (fun l j => (c l j : EReal)) (fun i => (x i : EReal))
        (fun i => (w3 i : EReal)) (fun i => (b i : EReal)) n r j
        + tileTerm (fun i => (a i : EReal)) (fun l j => (c l j : EReal)) n r j = _
    rw [ih, tileTerm_coe, Finset.sum_range_succ, ← EReal.coe_add, add_assoc]

theorem support_coe (a : MatR 8192 8192) (inp : MatR 8192 512) (x : MatR 8192 512) (r : Fin 8192) (k : Fin 9216) :
    support (fun i => (a i : EReal)) (fun i => (inp i : EReal)) (fun i => (x i : EReal)) r k
      = (supportR a inp x r k : EReal) := by
  unfold support supportR
  split_ifs
  · simp only [coe_finsum, EReal.coe_mul]
  · rfl
  · rfl

theorem Gref_coe (a : MatR 8192 8192) (inp : MatR 8192 512) (x : MatR 8192 512) (w : MatR 9216 512) (b : VcR 512)
    (r : Fin 8192) (j : Fin 512) :
    Gref (fun i => (a i : EReal)) (fun i => (inp i : EReal)) (fun i => (x i : EReal)) (fun i => (w i : EReal))
        (fun i => (b i : EReal)) r j
      = (((∑ k : Fin 9216, supportR a inp x r k * w (ix2 k j)) + b (ix1 j) : ℝ) : EReal) := by
  simp only [Gref, support_coe, EReal.coe_add, coe_finsum, EReal.coe_mul]

/-! ## The identity in the reals -/

/-- The pair (tile, column in the tile) numbers the 8192 columns. -/
def tileEquiv : Fin 16 × Fin 512 ≃ Fin 8192 := finProdFinEquiv (m := 16) (n := 512)

theorem tileEquiv_apply (p : Fin 16 × Fin 512) : tileEquiv p = tcol p.1.val p.2 := by
  apply Fin.ext
  have h1 := p.1.isLt
  have h2 := p.2.isLt
  show p.2.val + 512 * p.1.val = (512 * p.1.val + p.2.val) % 8192
  omega

/-- Summing tile by tile, and inside each tile column by column, is summing over all 8192 columns. -/
theorem sum_tiles (F : Fin 8192 → ℝ) :
    ∑ s ∈ Finset.range 16, ∑ k : Fin 512, F (tcol s k) = ∑ l : Fin 8192, F l := by
  rw [← Fin.sum_univ_eq_sum_range (fun s => ∑ k : Fin 512, F (tcol s k)) 16]
  rw [← Fintype.sum_prod_type' (fun (s : Fin 16) (k : Fin 512) => F (tcol s.val k))]
  exact Fintype.sum_equiv tileEquiv _ _ (fun p => by rw [tileEquiv_apply])

/-- A sum over the 9216 rows of the stacked weight is the sum over its three slices. -/
theorem sum_three (f : Fin 9216 → ℝ) :
    ∑ k : Fin 9216, f k
      = ∑ k : Fin 512, f (rowW1 k) + (∑ l : Fin 8192, f (rowW2 l) + ∑ k : Fin 512, f (rowW3 k)) := by
  have h1 : ∑ k : Fin 9216, f k
      = ∑ k : Fin 512, f (rowW1 k) + ∑ i : Fin 8704, f ⟨512 + i.val, by omega⟩ :=
    Fin.sum_univ_add (a := 512) (b := 8704) f
  have h2 : ∑ i : Fin 8704, f ⟨512 + i.val, by omega⟩
      = ∑ l : Fin 8192, f (rowW2 l) + ∑ k : Fin 512, f ⟨512 + (8192 + k.val), by omega⟩ :=
    Fin.sum_univ_add (a := 8192) (b := 512) (fun i : Fin 8704 => f ⟨512 + i.val, by omega⟩)
  have h3 : ∀ k : Fin 512, (⟨512 + (8192 + k.val), by omega⟩ : Fin 9216) = rowW3 k :=
    fun k => Fin.ext (by show 512 + (8192 + k.val) = 8704 + k.val; omega)
  rw [h1, h2]
  simp only [h3]

theorem supportR_W1 (a : MatR 8192 8192) (inp : MatR 8192 512) (x : MatR 8192 512) (r : Fin 8192) (k : Fin 512) :
    supportR a inp x r (rowW1 k) = ∑ l : Fin 8192, a (ix2 r l) * inp (ix2 l k) := by
  have h : (rowW1 k).val < 512 := k.isLt
  unfold supportR
  rw [dif_pos h]
  rfl

theorem supportR_W2 (a : MatR 8192 8192) (inp : MatR 8192 512) (x : MatR 8192 512) (r : Fin 8192) (l : Fin 8192) :
    supportR a inp x r (rowW2 l) = a (ix2 r l) := by
  have h1 : ¬ (rowW2 l).val < 512 := by show ¬ (512 + l.val < 512); omega
  have h2 : (rowW2 l).val < 8704 := by show 512 + l.val < 8704; omega
  have hh : (rowW2 l).val - 512 < 8192 := by show 512 + l.val - 512 < 8192; omega
  have e : (⟨(rowW2 l).val - 512, hh⟩ : Fin 8192) = l := Fin.ext (by show 512 + l.val - 512 = l.val; omega)
  unfold supportR
  rw [dif_neg h1, dif_pos h2]
  exact congrArg (fun t => a (ix2 r t)) e

theorem supportR_W3 (a : MatR 8192 8192) (inp : MatR 8192 512) (x : MatR 8192 512) (r : Fin 8192) (k : Fin 512) :
    supportR a inp x r (rowW3 k) = x (ix2 r k) := by
  have h1 : ¬ (rowW3 k).val < 512 := by show ¬ (8704 + k.val < 512); omega
  have h2 : ¬ (rowW3 k).val < 8704 := by show ¬ (8704 + k.val < 8704); omega
  have hh : (rowW3 k).val - 8704 < 512 := by show 8704 + k.val - 8704 < 512; omega
  have e : (⟨(rowW3 k).val - 8704, hh⟩ : Fin 512) = k := Fin.ext (by show 8704 + k.val - 8704 = k.val; omega)
  unfold supportR
  rw [dif_neg h1, dif_neg h2]
  exact congrArg (fun t => x (ix2 r t)) e

/-- The heart of the matter, for one row and one column: distribute, and take the double sum in the other order. -/
theorem core (A : Fin 8192 → ℝ) (I : Fin 8192 → Fin 512 → ℝ) (X W1 W3 : Fin 512 → ℝ) (W2 : Fin 8192 → ℝ) (β : ℝ) :
    ((∑ k : Fin 512, X k * W3 k) + β) + ∑ l : Fin 8192, A l * ((∑ q : Fin 512, I l q * W1 q) + W2 l)
      = (∑ k : Fin 512, (∑ l : Fin 8192, A l * I l k) * W1 k
          + (∑ l : Fin 8192, A l * W2 l + ∑ k : Fin 512, X k * W3 k)) + β := by
  have h : ∑ l : Fin 8192, A l * ((∑ q : Fin 512, I l q * W1 q) + W2 l)
      = ∑ k : Fin 512, (∑ l : Fin 8192, A l * I l k) * W1 k + ∑ l : Fin 8192, A l * W2 l := by
    simp only [mul_add, Finset.sum_add_distrib, Finset.mul_sum, Finset.sum_mul]
    rw [Finset.sum_comm]
    simp only [mul_assoc]
  rw [h]
  ring

theorem real_identity (a : MatR 8192 8192) (inp : MatR 8192 512) (x : MatR 8192 512) (w : MatR 9216 512) (b : VcR 512)
    (r : Fin 8192) (j : Fin 512) :
    acc0R x (sl3R w) b r j + ∑ s ∈ Finset.range 16, tileR a (CofR inp (sl1R w) (sl2R w)) s r j
      = (∑ k : Fin 9216, supportR a inp x r k * w (ix2 k j)) + b (ix1 j) := by
  have ht : ∑ s ∈ Finset.range 16, tileR a (CofR inp (sl1R w) (sl2R w)) s r j
      = ∑ l : Fin 8192, a (ix2 r l) * ((∑ q : Fin 512, inp (ix2 l q) * w (ix2 (rowW1 q) j)) + w (ix2 (rowW2 l) j)) :=
    sum_tiles (fun l => a (ix2 r l) * ((∑ q : Fin 512, inp (ix2 l q) * w (ix2 (rowW1 q) j)) + w (ix2 (rowW2 l) j)))
  have hs := sum_three (fun k => supportR a inp x r k * w (ix2 k j))
  simp only [supportR_W1, supportR_W2, supportR_W3] at hs
  rw [ht, hs]
  exact core (fun l => a (ix2 r l)) (fun l q => inp (ix2 l q)) (fun k => x (ix2 r k)) (fun q => w (ix2 (rowW1 q) j))
    (fun k => w (ix2 (rowW3 k) j)) (fun l => w (ix2 (rowW2 l) j)) (b (ix1 j))

/-! ## The two results agree -/

theorem Gker_eq_Gref (adj : Mat 8192 8192) (inp : Mat 8192 512) (x : Mat 8192 512) (wt : Mat 9216 512) (bias : Vc 512)
    (hadj : IsReal adj) (hinp : IsReal inp) (hx : IsReal x) (hwt : IsReal wt) (hbias : IsReal bias)
    (r : Fin 8192) (j : Fin 512) :
    Gker adj inp x (sl1 wt) (sl2 wt) (sl3 wt) bias r j = Gref adj inp x wt bias r j := by
  obtain ⟨a, rfl⟩ := exists_real hadj
  obtain ⟨i, rfl⟩ := exists_real hinp
  obtain ⟨xr, rfl⟩ := exists_real hx
  obtain ⟨w, rfl⟩ := exists_real hwt
  obtain ⟨b, rfl⟩ := exists_real hbias
  have hc : Cof (fun t => (i t : EReal)) (sl1 fun t => (w t : EReal)) (sl2 fun t => (w t : EReal))
      = fun l j => (CofR i (sl1R w) (sl2R w) l j : EReal) := Cof_coe i (sl1R w) (sl2R w)
  have hk : Gker (fun t => (a t : EReal)) (fun t => (i t : EReal)) (fun t => (xr t : EReal)) (sl1 fun t => (w t : EReal))
        (sl2 fun t => (w t : EReal)) (sl3 fun t => (w t : EReal)) (fun t => (b t : EReal)) r j
      = ((acc0R xr (sl3R w) b r j + ∑ s ∈ Finset.range 16, tileR a (CofR i (sl1R w) (sl2R w)) s r j : ℝ) : EReal) := by
    unfold Gker
    rw [hc]
    exact accAfter_coe a (CofR i (sl1R w) (sl2R w)) xr (sl3R w) b 16 r j
  rw [hk, Gref_coe, real_identity]

end Cert.Spec

end
-- ==== Proof.lean ====
/-
  The certificate: a kernel that computes out = adj · (input · W1 + W2) + x · W3 + bias in two pipelined regions — C =
  input · W1 + W2 by row tiles, then out accumulated over sixteen column tiles of adj in a scratch buffer — against the
  reference [adj · input | adj | x] · W + bias, where W stacks W1, W2 and W3.

  Frames. Each kernel program is three host slices and two regions; every region's body is run on its staging
  buffers once per control case, the second region's accumulator is carried in its invariant from point to point, and
  the segments are chained from the launch memory to the end (Proof/K, Proof/KI: Run). The reference is host
  operations only; its frame is its run with the result dropped.
  Preserves. The idealization rewrote nothing: the conjunct is trivial.
  Algebraic. At the extended reals the kernel's result is Gker of the launch arguments (Proof/KI/Value) and the
  reference's is Gref (Proof/Ref). The precondition makes every entry a real number (Proof/Finite), and for real
  entries Gker = Gref: the matrix product is associative and distributes over the sum, the sixteen tiles of 512 are
  the 8192 columns of adj, and the 9216 rows of W are its three slices (Proof/Algebra).
-/
import proofs.«106925_j33655363732151_1_alg».proof.Defs
import proofs.«106925_j33655363732151_1_alg».proof.Proof.Gen.Kernel
import proofs.«106925_j33655363732151_1_alg».proof.Proof.Gen.KernelIdeal
import proofs.«106925_j33655363732151_1_alg».proof.Proof.Gen.ReferenceIdeal
import proofs.«106925_j33655363732151_1_alg».proof.Proof.Gen.Pre_finite_inputs
import proofs.«106925_j33655363732151_1_alg».proof.Proof.K.Run
import proofs.«106925_j33655363732151_1_alg».proof.Proof.KI.Value
import proofs.«106925_j33655363732151_1_alg».proof.Proof.Ref
import proofs.«106925_j33655363732151_1_alg».proof.Proof.Finite
import proofs.«106925_j33655363732151_1_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame (F := Bits) m ρ
theorem frame_ki : Cert.frame_KernelIdeal := fun m ρ _ => Cert.KernelIdeal.Frm.frame (F := Ideal) m ρ
theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

/-- Both idealized programs end, from memories agreeing on the arguments, with the same result: the kernel's is Gker
    of its arguments, the reference's Gref of the same arrays, and these agree where every entry is real. -/
theorem algebraic : Cert.algebraic_KernelIdeal_ReferenceIdeal := by
  intro m ρ m' ρ' hpre hagree
  refine ⟨fun c => Cert.KernelIdeal.Frm.kerOut m c, Cert.KernelIdeal.Frm.run_ker m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4⟩ := hagree c
  obtain ⟨r0, r1, r2, r3, r4⟩ := Cert.Finite.isReal_of_pre _ _ _ _ _ (hpre c)
  unfold Cert.ReferenceIdeal.RefValue.refOut Cert.KernelIdeal.Frm.kerOut
  rw [h0, h1, h2, h3, h4]
  funext i
  exact (Cert.Spec.Gker_eq_Gref _ _ _ _ _ r1 r0 r2 r3 r4 (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
